-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : IVec S1x800000 32 := (extractStridedSlice S1x800000 ![1, 0] · slices_S2x800000_S1x800000_1_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  main_v29

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S10000x128 : Shape := ⟨2, ![10000, 128]⟩
abbrev S10000x1 : Shape := ⟨2, ![10000, 1]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S10000x40 : Shape := ⟨2, ![10000, 40]⟩
abbrev S1x40 : Shape := ⟨2, ![1, 40]⟩

abbrev nBuf : Space → Nat
  | .hbm => 81
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x40, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x40, .f32⟩
  | .hbm, ⟨74, _⟩ => ⟨S850000x40, .f32⟩
  | .hbm, ⟨75, _⟩ => ⟨S_, .f32⟩
  | .hbm, ⟨76, _⟩ => ⟨S50000x40, .f32⟩
  | .hbm, ⟨77, _⟩ => ⟨S850000x1, .i32⟩
  | .hbm, ⟨78, _⟩ => ⟨S50000x40, .f32⟩
  | .hbm, ⟨79, _⟩ => ⟨S1x40, .f32⟩
  | .hbm, ⟨80, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x40, .f32⟩
  | .local _ .vmem, ⟨19, _⟩ => ⟨S5000x40, .f32⟩
  | .local _ .vmem, ⟨20, _⟩ => ⟨S5000x40, .f32⟩
  | .local _ .vmem, ⟨21, _⟩ => ⟨S10000x40, .f32⟩
  | .local _ .vmem, ⟨22, _⟩ => ⟨S10000x40, .f32⟩
  | .local _ .vmem, ⟨23, _⟩ => ⟨S10000x1, .f32⟩
  | .local _ .vmem, ⟨24, _⟩ => ⟨S10000x1, .f32⟩
  | .local _ .vmem, ⟨25, _⟩ => ⟨S10000x40, .f32⟩
  | .local _ .vmem, ⟨26, _⟩ => ⟨S10000x40, .f32⟩
  | .local _ .vmem, ⟨27, _⟩ => ⟨S5000x40, .f32⟩
  | .local _ .vmem, ⟨28, _⟩ => ⟨S5000x40, .f32⟩
  | .local _ .vmem, ⟨29, _⟩ => ⟨S1x40, .f32⟩
  | .local _ .vmem, ⟨30, _⟩ => ⟨S5000x40, .f32⟩
  | .local _ .vmem, ⟨31, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![85], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  broadcasts_S10000x1_S10000x40 : S10000x1.Broadcasts S10000x40
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S850000x128.size a
  hwx1_0 : ∀ i : grid1.Coords, EltTy.bits .f32 = 32 ∨ (Rect.block (s := S850000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S850000x128.size a
  hwx1_2 : ∀ i : grid1.Coords, EltTy.bits .f32 = 32 ∨ (Rect.block (s := S850000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S850000x40.size a
  hwx4_0 : ∀ i : grid4.Coords, EltTy.bits .f32 = 32 ∨ (Rect.block (s := S850000x40) S10000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S850000x1.size a
  hwx4_1 : ∀ i : grid4.Coords, EltTy.bits .f32 = 32 ∨ (Rect.block (s := S850000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S850000x40.size a
  hwx4_2 : ∀ i : grid4.Coords, EltTy.bits .f32 = 32 ∨ (Rect.block (s := S850000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x128, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x40, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x40, .f32⟩
  | .hbm, ⟨105, _⟩ => ⟨S850000x1, .f32⟩
  | .hbm, ⟨106, _⟩ => ⟨S850000x40, .f32⟩
  | .hbm, ⟨107, _⟩ => ⟨S850000x40, .f32⟩
  | .hbm, ⟨108, _⟩ => ⟨S_, .f32⟩
  | .hbm, ⟨109, _⟩ => ⟨S50000x40, .f32⟩
  | .hbm, ⟨110, _⟩ => ⟨S850000x1, .i32⟩
  | .hbm, ⟨111, _⟩ => ⟨S50000x40, .f32⟩
  | .hbm, ⟨112, _⟩ => ⟨S1x40, .f32⟩
  | .hbm, ⟨113, _⟩ => ⟨S50000x40, .f32⟩
  | .hbm, ⟨114, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.EdgeIds.lean ====
/-
  The edge lists of the graph with its self-loops, as both programs build them from `edge_index : i32[2, 800000]`:
  row 0 (the sources) or row 1 (the destinations) followed by the node ids 0 … 49999, 850000 entries in all; and the
  index normalisation jnp applies before a gather or an `.at[].add`: a negative id has 50000 added.
  Written over the reference program's shapes and stated side conditions.
-/
import proofs.«105650_j28802050687441_1_alg».proof.ReferenceIdeal
import proofs.«105650_j28802050687441_1_alg».proof.Proof.Gen.ReferenceIdeal

set_option maxRecDepth 16384

noncomputable section

namespace Cert.Gcn

open Idealize.ShloMosaic Cert.ReferenceIdeal Cert.ReferenceIdeal.Facts₀ Cert.ReferenceIdeal.Facts

/-- The source id of every edge, the self-loops last. -/
def srcIds (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination id of every edge, the self-loops last. -/
def dstIds (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- jnp's index normalisation: a negative id has the number of nodes added, any other id is kept. -/
def wrapNeg (i : IVec S850000 32) : IVec S850000 32 :=
  select (cmpi .slt i (broadcastInDim S850000 ![] bcast_S_S850000 (constantI S_ 32 0#32))) (addi i (broadcastInDim S850000 ![] bcast_S_S850000 (constantI S_ 32 50000#32))) i

/-- An id vector as the one-column index array a gather or a scatter takes. -/
def asColumn (i : IVec S850000 32) : IVec S850000x1 32 :=
  broadcastInDim S850000x1 ![0] bcast_S850000_S850000x1_0 i

end Cert.Gcn

end
-- ==== Proof.GcnSpec.lean ====
/-
  The two-layer graph convolution as ONE function of the six inputs and of the id vector the degrees are counted at.

    deg       = scatter-add of ones at the counting ids                        (one per edge, self-loops included)
    dis       = deg > 0 ? rsqrt deg : 0
    coef[e]   = dis[src e] · dis[dst e]                                        (ids normalised before the two gathers)
    conv h b  = scatter-add at the raw destination ids of h[src e] · coef[e], plus the bias row
    out       = conv ((max (conv (x · W1) b1) 0) · W2) b2

  The reference counts the degrees at the NORMALISED destination ids (`.at[dst].add`), the kernel at the raw ones
  (`segment_sum`); everything else is the same composition. Both programs are instances of `gcn`, at `wrapNeg (dstIds e)`
  and at `dstIds e`. Written over the reference program's shapes, records and stated side conditions, at any float family.
-/
import proofs.«105650_j28802050687441_1_alg».proof.ReferenceIdeal
import proofs.«105650_j28802050687441_1_alg».proof.Proof.Gen.ReferenceIdeal
import proofs.«105650_j28802050687441_1_alg».proof.Proof.EdgeIds

set_option maxRecDepth 16384

noncomputable section

namespace Cert.Gcn

open Idealize.ShloMosaic Cert.ReferenceIdeal Cert.ReferenceIdeal.Facts₀ Cert.ReferenceIdeal.Facts

variable {F : FTy → Type} [FloatOps F]

/-- The number of edges arriving at each node: ones added up at the counting ids (an id outside 0 … 49999 adds nothing). -/
def degree (ids : IVec S850000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 ids) (broadcastInDim S850000 ![] bcast_S_S850000 (constant S_ .f32 0x3F800000#32))

/-- `deg > 0 ? rsqrt deg : 0`. -/
def invSqrt (deg : FVec F S50000 .f32) : FVec F S50000 .f32 :=
  select (cmpf (F := F) .ogt deg (broadcastInDim S50000 ![] bcast_S_S50000 (constant S_ .f32 0x00000000#32))) (Host.rsqrt deg) (broadcastInDim S50000 ![] bcast_S_S50000 (id (constant S_ .f32 0x00000000#32)))

/-- Every edge's coefficient: the inverse square roots of its two ends' degrees multiplied. -/
def edgeCoef (dis : FVec F S50000 .f32) (e : IVec S2x800000 32) : FVec F S850000 .f32 :=
  mulf (Host.gather gather_S50000_S850000x1_S850000_n_0_n_n_0_1_1 dis (broadcastInDim S850000x1 ![0] bcast_S850000_S850000x1_0 (wrapNeg (srcIds e)))) (Host.gather gather_S50000_S850000x1_S850000_n_0_n_n_0_1_1 dis (broadcastInDim S850000x1 ![0] bcast_S850000_S850000x1_0 (wrapNeg (dstIds e))))

/-- The first layer's aggregation: every edge's source row of `h` times the edge's coefficient, added up at the edge's raw
    destination id, plus the bias row. -/
def conv128 (e : IVec S2x800000 32) (h : FVec F S50000x128 .f32) (coef : FVec F S850000 .f32) (b : FVec F S128 .f32) : FVec F S50000x128 .f32 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (dstIds e)) (mulf (Host.gather gather_S50000x128_S850000x1_S850000x128_1_0_n_n_0_1_1128 h (broadcastInDim S850000x1 ![0] bcast_S850000_S850000x1_0 (wrapNeg (srcIds e)))) (broadcastInDim S850000x128 ![0, 1] bcast_S850000x1_S850000x128_0_1 (broadcastInDim S850000x1 ![0] bcast_S850000_S850000x1_0 coef)))) (broadcastInDim S50000x128 ![0, 1] bcast_S1x128_S50000x128_0_1 (broadcastInDim S1x128 ![1] bcast_S128_S1x128_1 b))

/-- The second layer's aggregation, 40 columns wide. -/
def conv40 (e : IVec S2x800000 32) (h : FVec F S50000x40 .f32) (coef : FVec F S850000 .f32) (b : FVec F S40 .f32) : FVec F S50000x40 .f32 :=
  addf (Host.scatterAdd scatter_S50000x40_S850000x1_S850000x40_1_0_0_1 (broadcastInDim S50000x40 ![] bcast_S_S50000x40 (constant S_ .f32 0x00000000#32)) (broadcastInDim S850000x1 ![0] bcast_S850000_S850000x1_0 (dstIds e)) (mulf (Host.gather gather_S50000x40_S850000x1_S850000x40_1_0_n_n_0_1_140 h (broadcastInDim S850000x1 ![0] bcast_S850000_S850000x1_0 (wrapNeg (srcIds e)))) (broadcastInDim S850000x40 ![0, 1] bcast_S850000x1_S850000x40_0_1 (broadcastInDim S850000x1 ![0] bcast_S850000_S850000x1_0 coef)))) (broadcastInDim S50000x40 ![0, 1] bcast_S1x40_S50000x40_0_1 (broadcastInDim S1x40 ![1] bcast_S40_S1x40_1 b))

/-- The whole network, the degrees counted at `ids`. -/
def gcn (ids : IVec S850000 32) (x : FVec F S50000x128 .f32) (e : IVec S2x800000 32) (w1 : FVec F S128x128 .f32)
    (b1 : FVec F S128 .f32) (w2 : FVec F S128x40 .f32) (b2 : FVec F S40 .f32) : FVec F S50000x40 .f32 :=
  conv40 e (Host.dotGeneral dot_S50000x128_S128x40_S50000x40_1_0_0_1_n_n none
      (maximumf (conv128 e (Host.dotGeneral dot_S50000x128_S128x128_S50000x128_1_0_0_1_n_n none x w1) (edgeCoef (invSqrt (degree ids)) e) b1)
        (broadcastInDim S50000x128 ![] bcast_S_S50000x128 (constant S_ .f32 0x00000000#32))) w2)
    (edgeCoef (invSqrt (degree ids)) e) b2

end Cert.Gcn

end
-- ==== Proof.Spec.lean ====
/-
  The four whole-array functions the six kernel regions of the two-layer graph convolution compute, over the
  extended reals, index by index, at any sizes:

    matProduct x w   (i, j) ↦ Σ_k x[i, k] · w[k, j]          the node features times a weight matrix
    scaleRows g s    (i, j) ↦ g[i, j] · s[i, 0]              every edge's message times that edge's coefficient
    addRow a b       (i, j) ↦ a[i, j] + b[0, j]              the bias row added to every node
    addRowRelu a b   (i, j) ↦ max (a[i, j] + b[0, j]) 0      the same, then the rectifier

  No program is imported here: the kernel side proves that each region leaves one of these of its input arrays, the
  reference side that the host operations it applies in that place are the same function.
-/
import Idealize.ShloMosaic.PureOps.Ideal
import Idealize.ShloMosaic.Lib.ValueIdx

noncomputable section

namespace Cert.Gcn

open Idealize.ShloMosaic ValueIdx

/-- Row `i` of `x` against column `j` of `w`: the sum over the shared axis of the products. -/
def matProduct {n k p : Nat} (x : (⟨2, ![n, k]⟩ : Shape).Idx → EReal) (w : (⟨2, ![k, p]⟩ : Shape).Idx → EReal) :
    (⟨2, ![n, p]⟩ : Shape).Idx → EReal :=
  fun i => ∑ l : Fin k, x (ix2 (⟨(i 0).val, idx2_lt0 i⟩ : Fin n) l) * w (ix2 l (⟨(i 1).val, idx2_lt1 i⟩ : Fin p))

/-- Every row of `g` times that row's entry of the one-column array `s`. -/
def scaleRows {n p : Nat} (g : (⟨2, ![n, p]⟩ : Shape).Idx → EReal) (s : (⟨2, ![n, 1]⟩ : Shape).Idx → EReal) :
    (⟨2, ![n, p]⟩ : Shape).Idx → EReal :=
  fun i => g i * s (ix2 (⟨(i 0).val, idx2_lt0 i⟩ : Fin n) (0 : Fin 1))

/-- The one-row array `b` added to every row of `a`. -/
def addRow {n p : Nat} (a : (⟨2, ![n, p]⟩ : Shape).Idx → EReal) (b : (⟨2, ![1, p]⟩ : Shape).Idx → EReal) :
    (⟨2, ![n, p]⟩ : Shape).Idx → EReal :=
  fun i => a i + b (ix2 (0 : Fin 1) (⟨(i 1).val, idx2_lt1 i⟩ : Fin p))

/-- The one-row array `b` added to every row of `a`, then the larger of that and zero (the zero as the program
    writes it: the word `0x00000000` read at the extended reals). -/
def addRowRelu {n p : Nat} (a : (⟨2, ![n, p]⟩ : Shape).Idx → EReal) (b : (⟨2, ![1, p]⟩ : Shape).Idx → EReal) :
    (⟨2, ![n, p]⟩ : Shape).Idx → EReal :=
  fun i => max (a i + b (ix2 (0 : Fin 1) (⟨(i 1).val, idx2_lt1 i⟩ : Fin p))) (Ideal.ofBits .f32 0x00000000#32)

end Cert.Gcn

end
-- ==== Proof.NodeLinear128.lean ====
/-
  Region 0 (the first pallas_call): the node features times the first weight matrix, ten blocks of 5000 rows.
  Each grid point multiplies its 5000 rows of `x` by the whole of `W1` (the two roundings to bf16 are the identity at the
  extended reals, the accumulator starts at zero) and writes the 5000 × 128 block back; the ten blocks tile the array, so the
  array ends holding `matProduct x W1`.
  Stated at any contents `V` of the TensorCore's buffers at the region's entry.
-/
import proofs.«105650_j28802050687441_1_alg».proof.Proof.Gen.KernelIdeal.Frame
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.NodeLinear128

open Cert.KernelIdeal Cert.KernelIdeal.Gen ValueIdx

variable (V : (c : Dev nD) → (b : Ref sig .tc) → Buf (Elt Ideal) ((c : Thread nD τ).loc b))

/-! ## The product's operand indices, axis by axis

The dimension numbers contract axis 1 of the left operand with axis 0 of the right one and have no batch axis: at output
index `(r, c)` and contraction position `q` the left operand is read at `(r, q)` and the right one at `(q, c)`. -/

/-- The left operand's row is the output's row (a free axis). -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position (its one contracted axis). -/
theorem lhs_shared (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction position (its one contracted axis). -/
theorem rhs_shared (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the output's column (a free axis). -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## What the body stores, entry by entry -/

/-- Entry `(p, q)` of what the body stores is row `p` of its first block against column `q` of its second: the two
    format changes are the identity on extended reals, the accumulator is the zero array, and the sum over the
    contraction index is the sum over the shared axis's 128 positions, re-indexed by that axis's coordinate. -/
theorem product_at (x0 : Vec Ideal S5000x128 .f32) (x1 : Vec Ideal S128x128 .f32) (p : Fin 5000) (q : Fin 128) :
    k0_pay1 x0 x1 (ix2 p q) = ∑ l : Fin 128, x0 (ix2 p l) * x1 (ix2 l q) := by
  unfold k0_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  rw [truncf_apply, truncf_apply]
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_shared _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_shared _ _).trans hk
      | ⟨1, _⟩ => exact rhs_col _ _)
  rw [el, er]

/-! ## The blocks at a grid point -/

/-- The body reads and writes its buffers whole: at offsets zero on both axes. -/
theorem zero_offsets : (![0, 0] : Fin 2 → Nat) = fun _ => 0 := funext fun a => by fin_cases a <;> rfl

/-- The three index maps over the ten points: the feature window moves down the rows with the output window and stays
    at column block 0; the weight window is block (0, 0) at every point; the output's row block is one of 0 … 9 and
    its column block is 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Each of the ten row blocks of the output is some point's. -/
theorem row_block_onto : ∀ r : Fin 10, ∃ t : Fin cfg0.N, win0_2.index t (0 : Fin 2) = r.val ∧ win0_2.index t (1 : Fin 2) = 0 :=
  (by decide +kernel : ∀ r : Fin 10, ∃ t : Fin grid0.N, win0_2.index t (0 : Fin 2) = r.val ∧ win0_2.index t (1 : Fin 2) = 0)

/-- The feature window's block at point `t` is rows `5000 b … 5000 b + 4999` of the feature array, `b` the output's
    row block at `t`: a block's coordinate is the block index times the block's extent plus the coordinate inside. -/
theorem feature_rows (c : Dev nD) (t : Fin cfg0.N) (y : S5000x128.Idx) (k : S50000x128.Idx)
    (hk0 : (k 0).val = win0_2.index t (0 : Fin 2) * 5000 + (y 0).val) (hk1 : (k 1).val = (y 1).val) :
    (iblk0 V c 0 t : Vec Ideal S5000x128 .f32) y = (V c main_arg0 : S50000x128.Idx → EReal) k := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The weight window's block is the whole weight array at every point. -/
theorem weight_whole (c : Dev nD) (t : Fin cfg0.N) (y : S128x128.Idx) :
    (iblk0 V c 1 t : Vec Ideal S128x128 .f32) y = (V c main_arg2 : S128x128.Idx → EReal) y := by
  obtain ⟨-, -, e2, e3, -, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- One entry of one block: if the first block is rows `5000 b …` of `a0` and the second is `a2`, the body's entry `j`
    is entry `i` of `matProduct a0 a2` for the array index `i` under `j` (row `5000 b + j₀`, column `j₁`) — both are
    the same sum over the shared axis, term by term. -/
theorem block_entry (a0 : S50000x128.Idx → EReal) (a2 : S128x128.Idx → EReal)
    (x0 : Vec Ideal S5000x128 .f32) (x1 : Vec Ideal S128x128 .f32) (b : Nat) (j : S5000x128.Idx) (i : S50000x128.Idx)
    (hi0 : (i 0).val = b * 5000 + (j 0).val) (hi1 : (i 1).val = (j 1).val)
    (h0 : ∀ (y : S5000x128.Idx) (k : S50000x128.Idx), (k 0).val = b * 5000 + (y 0).val → (k 1).val = (y 1).val → x0 y = a0 k)
    (h1 : ∀ y : S128x128.Idx, x1 y = a2 y) :
    k0_pay1 x0 x1 j = Cert.Gcn.matProduct (n := 50000) (k := 128) (p := 128) a0 a2 i := by
  obtain ⟨p, q, rfl⟩ : ∃ (p : Fin 5000) (q : Fin 128), j = ix2 p q := ⟨j 0, j 1, eq_ix2 j⟩
  rw [product_at]
  unfold Cert.Gcn.matProduct
  refine Finset.sum_congr rfl fun l _ => ?_
  have hq : (⟨(i 1).val, idx2_lt1 i⟩ : Fin 128) = q := Fin.ext hi1
  rw [hq, h1, h0 (ix2 p l) (ix2 (⟨(i 0).val, idx2_lt0 i⟩ : Fin 50000) l) hi0 rfl]

/-- What point `t` writes back is block `t` of `matProduct x W1`. -/
theorem written_block (c : Dev nD) (t : Fin cfg0.N) :
    (dat0 V c).flushed 2 t = ((cfg0.win 2).blk t).view.read (Elt Ideal)
      (Cert.Gcn.matProduct (n := 50000) (k := 128) (p := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, -, e5⟩ := block_indices t
  funext j
  rw [View.read_apply]
  refine block_entry (V c main_arg0) (V c main_arg2) (iblk0 V c 0 t) (iblk0 V c 1 t) (win0_2.index t (0 : Fin 2)) j _ ?_ ?_
    (fun y k hk0 hk1 => feature_rows V c t y k hk0 hk1) (fun y => weight_whole V c t y)
  · show win0_2.index t (0 : Fin 2) * 5000 + 1 * (j 0).val = _; omega
  · show win0_2.index t (1 : Fin 2) * 128 + 1 * (j 1).val = _; rw [e5]; omega

/-! ## The ten blocks tile the array -/

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the output array is in the block of the point whose row block is `row / 5000`. -/
theorem blocks_cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := row_block_onto ⟨(i 0).val / 5000, by omega⟩
  have q0' : win0_2.index t (0 : Fin 2) = (i 0).val / 5000 := q0
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region's last grid point. -/
theorem array_eq (c : Dev nD) :
    (dat0 V c).arrAt 2 cfg0.N = Cert.Gcn.matProduct (n := 50000) (k := 128) (p := 128) (V c main_arg0) (V c main_arg2) := by
  exact (dat0 V c).arrAt_eq_of_cover 2
    (Cert.Gcn.matProduct (n := 50000) (k := 128) (p := 128) (V c main_arg0) (V c main_arg2))
    (fun t _ => written_block V c t) blocks_cover

end Cert.KernelIdeal.NodeLinear128

end
-- ==== Proof.EdgeScale128.lean ====
/-
  Region 1 (the second pallas_call): every edge's gathered 128-wide feature row times that edge's normalisation
  coefficient, 85 blocks of 10000 edges. Each grid point multiplies its block of rows by its block of the one-column
  coefficient array, broadcast along the row, and writes the block back; the 85 blocks tile the array, so the array ends
  holding `scaleRows gathered coef`.
  Stated at any contents `V` of the TensorCore's buffers at the region's entry.
-/
import proofs.«105650_j28802050687441_1_alg».proof.Proof.Gen.KernelIdeal.Frame
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.EdgeScale128

open Cert.KernelIdeal Cert.KernelIdeal.Gen ValueIdx

variable (V : (c : Dev nD) → (b : Ref sig .tc) → Buf (Elt Ideal) ((c : Thread nD τ).loc b))

/-- A whole-block rectangle starts at the origin on both axes. -/
theorem origin_eq : (![0, 0] : Fin 2 → Nat) = fun _ => 0 := funext fun a => by fin_cases a <;> rfl

/-- The body's value at row `p`, column `q` of a block: the feature entry there times the entry of the one-column
    coefficient block in the same row. The two reshapes keep the shape, so they are the identity; the broadcast along
    the row reads the coefficient at column `0`; the product is taken entry by entry. -/
theorem pay_apply (x0 : Vec Ideal S10000x128 .f32) (x1 : Vec Ideal S10000x1 .f32) (p : Fin 10000) (q : Fin 128) :
    k1_pay1 x0 x1 (ix2 p q) = x0 (ix2 p q) * x1 (ix2 p (0 : Fin 1)) := by
  unfold k1_pay1
  simp only [shapeCast_self]
  rw [mulf_apply]
  congr 1
  refine broadcastTo_apply _ _ _ _ fun a => ?_
  match a with
  | ⟨0, _⟩ => rfl
  | ⟨1, _⟩ => rfl

/-- From blocks to arrays, at one entry. If the feature block at `(p, q)` is the array `g` at `i`, and the coefficient
    block at `(p, 0)` is the array `s` at row `i 0`, then the body's value at `(p, q)` is `scaleRows g s` at `i`. -/
theorem entry_of_blocks (g : S850000x128.Idx → EReal) (s : S850000x1.Idx → EReal)
    (x0 : Vec Ideal S10000x128 .f32) (x1 : Vec Ideal S10000x1 .f32)
    (p : Fin 10000) (q : Fin 128) (j : S10000x128.Idx) (hj : j = ix2 p q) (i : S850000x128.Idx)
    (h0 : x0 (ix2 p q) = g i)
    (h1 : x1 (ix2 p (0 : Fin 1)) = s (ix2 (⟨(i 0).val, idx2_lt0 i⟩ : Fin 850000) (0 : Fin 1))) :
    k1_pay1 x0 x1 j = Cert.Gcn.scaleRows g s i := by
  subst hj
  rw [pay_apply, h0, h1]
  rfl

/-- The three index maps over the 85 grid points: each window's block row is the point's number and its block column
    is `0`, so the feature, coefficient and output blocks of a point all sit over the same 10000 rows. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaleRows` of the two input arrays. An entry `j` of the output block
    sits in the array at `index × size + j` on each axis; the feature block is read at the same place, and the coefficient
    block at the same row and column `0`. -/
theorem flushed_eq (c : Dev nD) (t : Fin cfg1.N) :
    (dat1 V c).flushed 2 t
      = ((cfg1.win 2).blk t).view.read (Elt Ideal)
          (Cert.Gcn.scaleRows (n := 850000) (p := 128) (V c main_v38) (V c main_v30)) := by
  show (cfg1.win 2).cut (grid1.coords t) ((dat1 V c).after 2 t) = _
  rw [after1_2]
  unfold out1_2
  rw [View.canon_unit_zero origin_eq]
  simp only [View.ld_unit_zero (S := S10000x128) origin_eq, View.ld_unit_zero (S := S10000x1) origin_eq]
  obtain ⟨a0, a1, b0, b1, o0, o1⟩ := index_facts t
  funext j
  show k1_pay1 (iblk1 V c 0 t) (iblk1 V c 1 t) j
    = Cert.Gcn.scaleRows (V c main_v38) (V c main_v30) (((cfg1.win 2).blk t).view.emb j)
  refine entry_of_blocks _ _ _ _ (j 0) (j 1) j (eq_ix2 j) _ ?_ ?_
  · -- the feature block's entry (j 0, j 1) and the output block's entry j are the same place of the array
    show V c main_v38 (((cfg1.win 0).blk t).view.emb (ix2 (j 0) (j 1))) = V c main_v38 (((cfg1.win 2).blk t).view.emb j)
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * (j 1).val = win1_2.index t (1 : Fin 2) * 128 + 1 * (j 1).val
      omega
  · -- the coefficient block's entry (j 0, 0) is the coefficient array at the output entry's row, column 0
    show V c main_v30 (((cfg1.win 1).blk t).view.emb (ix2 (j 0) (0 : Fin 1)))
        = V c main_v30 (ix2 ⟨(((cfg1.win 2).blk t).view.emb j 0).val, _⟩ (0 : Fin 1))
    refine congrArg _ (funext fun a => Fin.ext ?_)
    match a with
    | ⟨0, _⟩ =>
      show win1_1.index t (0 : Fin 2) * 10000 + 1 * (j 0).val = win1_2.index t (0 : Fin 2) * 10000 + 1 * (j 0).val
      omega
    | ⟨1, _⟩ =>
      show win1_1.index t (1 : Fin 2) * 1 + 1 * 0 = 0
      omega

/-- An index of the array lies in point `t`'s output block iff, on each axis, its coordinate lies in the block's range
    `[index × size, index × size + size)`. -/
theorem mem_block (t : Fin cfg1.N) (i : S850000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- The 85 blocks tile the array: row `r` lies in the block of point `r / 10000` (850000 = 85 · 10000), and every
    column lies in the one block column. -/
theorem covered (i : S850000x128.Idx) :
    ∃ t : Fin cfg1.N, (cfg1.win 2).flush t = true ∧ i ∈ ((cfg1.win 2).blk t).view.set := by
  have hi0 : (i 0).val < 850000 := (i 0).isLt
  have hi1 : (i 1).val < 128 := (i 1).isLt
  have ht : (i 0).val / 10000 < 85 := by omega
  obtain ⟨-, -, -, -, o0, o1⟩ := index_facts ⟨(i 0).val / 10000, ht⟩
  have r0 : win1_2.index ⟨(i 0).val / 10000, ht⟩ (0 : Fin 2) = (i 0).val / 10000 := o0
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    omega

/-- The output array after the region's last grid point. -/
theorem array_eq (c : Dev nD) :
    (dat1 V c).arrAt 2 cfg1.N = Cert.Gcn.scaleRows (n := 850000) (p := 128) (V c main_v38) (V c main_v30) :=
  (dat1 V c).arrAt_eq_of_cover 2 (Cert.Gcn.scaleRows (n := 850000) (p := 128) (V c main_v38) (V c main_v30))
    (fun t _ => flushed_eq V c t) covered

end Cert.KernelIdeal.EdgeScale128

end
-- ==== Proof.BiasRelu128.lean ====
/-
  Region 2 (the third pallas_call): the first layer's bias row added to every node's aggregated row, then the
  rectifier, ten blocks of 5000 nodes. The ten blocks tile the array, so the array ends holding `addRowRelu agg b1`.
  Stated at any contents `V` of the TensorCore's buffers at the region's entry.
-/
import proofs.«105650_j28802050687441_1_alg».proof.Proof.Gen.KernelIdeal.Frame
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.BiasRelu128

open Cert.KernelIdeal Cert.KernelIdeal.Gen ValueIdx

variable (V : (c : Dev nD) → (b : Ref sig .tc) → Buf (Elt Ideal) ((c : Thread nD τ).loc b))

/-- The body's loads start at offset zero on both axes. -/
theorem zero_offsets : (![0, 0] : Fin 2 → Nat) = fun _ => 0 := funext fun a => by fin_cases a <;> rfl

/-- The body's stored value at row `p`, column `q` of a block: the same-shape casts are identities, the bias
    row is read at row 0 and column `q` whatever `p` is, and the rectifier's zero is the word `0x00000000`. -/
theorem payload_apply (x0 : Vec Ideal S5000x128 .f32) (x1 : Vec Ideal S1x128 .f32) (p : Fin 5000) (q : Fin 128) :
    k2_pay1 x0 x1 (ix2 p q) = max (x0 (ix2 p q) + x1 (ix2 (0 : Fin 1) q)) (Ideal.ofBits .f32 0x00000000#32) := by
  unfold k2_pay1
  simp only [maximumf_apply, addf_apply, broadcast_apply, shapeCast_self]
  rw [broadcastTo_apply x1 broadcasts_S1x128_S5000x128 (ix2 p q) (ix2 (0 : Fin 1) q) (fun a => ?_)]
  · rfl
  · match a with
    | ⟨0, _⟩ => rfl
    | ⟨1, _⟩ => rfl

/-- The same at any index of the block, its column named by its value. -/
theorem payload_at (x0 : Vec Ideal S5000x128 .f32) (x1 : Vec Ideal S1x128 .f32) (j : S5000x128.Idx) :
    k2_pay1 x0 x1 j
      = max (x0 j + x1 (ix2 (0 : Fin 1) (⟨(j 1).val, idx2_lt1 j⟩ : Fin 128))) (Ideal.ofBits .f32 0x00000000#32) := by
  obtain ⟨p, q, rfl⟩ : ∃ (p : Fin 5000) (q : Fin 128), j = ix2 p q := ⟨j 0, j 1, eq_ix2 j⟩
  exact payload_apply x0 x1 p q

/-- One entry of the whole-array function from one entry of each input: the aggregated array read at an index with
    the coordinates of `i`, the bias row read at row 0 and `i`'s column. -/
theorem entry_eq (a : S50000x128.Idx → EReal) (b : S1x128.Idx → EReal) (i i0 : S50000x128.Idx) (i1 : S1x128.Idx)
    (hr : (i0 (0 : Fin 2)).val = (i (0 : Fin 2)).val) (hc : (i0 (1 : Fin 2)).val = (i (1 : Fin 2)).val)
    (hb0 : (i1 (0 : Fin 2)).val = 0) (hb1 : (i1 (1 : Fin 2)).val = (i (1 : Fin 2)).val) :
    max (a i0 + b i1) (Ideal.ofBits .f32 0x00000000#32) = Cert.Gcn.addRowRelu a b i := by
  have e0 : i0 = i := Shape.idx_ext₂ hr hc
  have e1 : i1 = ix2 (0 : Fin 1) (⟨(i 1).val, idx2_lt1 i⟩ : Fin 128) := Shape.idx_ext₂ hb0 hb1
  rw [e0, e1]; rfl

/-- The printed index maps over the ten grid points: the aggregated rows' window and the output's sit at the same
    block row, which is the point's number, and at column block 0; the bias row's window stays at block (0, 0). -/
theorem index_maps : ∀ t : Fin cfg2.N,
    win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What point `t` writes back is block `t` of the whole-array function of the two input arrays. -/
theorem flushed_eq (c : Dev nD) (t : Fin cfg2.N) :
    (dat2 V c).flushed 2 t = ((cfg2.win 2).blk t).view.read (Elt Ideal)
      (Cert.Gcn.addRowRelu (n := 50000) (p := 128) (V c main_v42) (V c main_v43)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S1x128) zero_offsets]
  obtain ⟨e0, e1, e2, e3, e4, e5⟩ := index_maps t
  funext j
  refine (payload_at _ _ _).trans ?_
  refine entry_eq (V c main_v42) (V c main_v43) (((cfg2.win 2).blk t).view.emb j)
    (((cfg2.win 0).blk t).view.emb j)
    (((cfg2.win 1).blk t).view.emb (ix2 (0 : Fin 1) (⟨(j 1).val, (j 1).isLt⟩ : Fin 128))) ?_ ?_ ?_ ?_
  · show win2_0.index t (0 : Fin 2) * 5000 + 1 * (j 0).val = win2_2.index t (0 : Fin 2) * 5000 + 1 * (j 0).val
    omega
  · show win2_0.index t (1 : Fin 2) * 128 + 1 * (j 1).val = win2_2.index t (1 : Fin 2) * 128 + 1 * (j 1).val
    omega
  · show win2_1.index t (0 : Fin 2) * 1 + 1 * 0 = 0
    omega
  · show win2_1.index t (1 : Fin 2) * 128 + 1 * (j 1).val = win2_2.index t (1 : Fin 2) * 128 + 1 * (j 1).val
    omega

/-- An index of the array is in point `t`'s block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v44).slice (win2_2.rect t)).set ↔ _
  rw [View.set_slice_whole, Rect.mem_set_unit]
  exact Iff.rfl

/-- The ten blocks of 5000 rows tile the 50000 rows: row `r` is in the block of point `r / 5000`. -/
theorem covered (i : S50000x128.Idx) :
    ∃ t : Fin cfg2.N, (cfg2.win 2).flush t = true ∧ i ∈ ((cfg2.win 2).blk t).view.set := by
  have hr : (i 0).val < 50000 := (i 0).isLt
  have hc : (i 1).val < 128 := (i 1).isLt
  obtain ⟨t, ht⟩ : ∃ t : Fin cfg2.N, t.val = (i 0).val / 5000 :=
    ⟨⟨(i 0).val / 5000, by show _ < 10; omega⟩, rfl⟩
  obtain ⟨-, -, e2, -, -, e5⟩ := index_maps t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the region's last grid point. -/
theorem array_eq (c : Dev nD) :
    (dat2 V c).arrAt 2 cfg2.N = Cert.Gcn.addRowRelu (n := 50000) (p := 128) (V c main_v42) (V c main_v43) :=
  (dat2 V c).arrAt_eq_of_cover 2 _ (fun t _ => flushed_eq V c t) covered

end Cert.KernelIdeal.BiasRelu128

end
-- ==== Proof.NodeLinear40.lean ====
/-
  Region 3 (the fourth pallas_call): the hidden features times the second weight matrix, ten blocks of 5000 rows.
  Each grid point multiplies its 5000 rows of the hidden features by the whole of `W2` and writes the 5000 × 40 block back;
  the ten blocks tile the array, so the array ends holding `matProduct h W2`.
  Stated at any contents `V` of the TensorCore's buffers at the region's entry.
-/
import proofs.«105650_j28802050687441_1_alg».proof.Proof.Gen.KernelIdeal.Frame
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.NodeLinear40

open Cert.KernelIdeal Cert.KernelIdeal.Gen ValueIdx

variable (V : (c : Dev nD) → (b : Ref sig .tc) → Buf (Elt Ideal) ((c : Thread nD τ).loc b))

/-! ## The product's operand indices, axis by axis

The dimension numbers contract axis 1 of the 5000 × 128 operand with axis 0 of the 128 × 40 one and have no batch axis:
at output index `(r, c)` and contraction position `q` the left operand is read at `(r, q)`, the right one at `(q, c)`. -/

/-- The left operand's row is the output's row (a free axis). -/
theorem lhs_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

/-- The left operand's column is the contraction position (its one contracted axis). -/
theorem lhs_shared (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q

/-- The right operand's row is the contraction position (its one contracted axis). -/
theorem rhs_shared (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q

/-- The right operand's column is the output's column (a free axis). -/
theorem rhs_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-! ## What the body stores, entry by entry -/

/-- Entry `(p, q)` of what the body stores is row `p` of its first block against column `q` of its second: the cast of
    the first block to its own shape and the two format changes are the identity on extended reals, the accumulator is
    the zero array, and the sum over the contraction index is the sum over the shared axis's 128 positions,
    re-indexed by that axis's coordinate. -/
theorem product_at (x0 : Vec Ideal S5000x128 .f32) (x1 : Vec Ideal S128x40 .f32) (p : Fin 5000) (q : Fin 40) :
    k3_pay1 x0 x1 (ix2 p q) = ∑ l : Fin 128, x0 (ix2 p l) * x1 (ix2 l q) := by
  unfold k3_pay1
  simp only [matmul]
  rw [Ideal.matmul_constant_zero_apply,
    ← Equiv.sum_comp (contrEquiv1 dot_S5000x128_S128x40_S5000x40_1_0_0_1_n_n 128 rfl rfl).symm]
  refine Finset.sum_congr rfl fun k _ => ?_
  rw [truncf_apply, truncf_apply, shapeCast_self]
  have hk := contrEquiv1_symm_val dot_S5000x128_S128x40_S5000x40_1_0_0_1_n_n 128 rfl rfl k
  have el : dot_S5000x128_S128x40_S5000x40_1_0_0_1_n_n.lhsIdx (ix2 p q)
      ((contrEquiv1 dot_S5000x128_S128x40_S5000x40_1_0_0_1_n_n 128 rfl rfl).symm k) = ix2 p k :=
    funext fun a => Fin.ext (by
      match a with
      | ⟨0, _⟩ => exact lhs_row _ _
      | ⟨1, _⟩ => exact (lhs_shared _ _).trans hk)
  have er : dot_S5000x128_S128x40_S5000x40_1_0_0_1_n_n.rhsIdx (ix2 p q)
      ((contrEquiv1 dot_S5000x128_S128x40_S5000x40_1_0_0_1_n_n 128 rfl rfl).symm k) = ix2 k q :=
    funext fun a => Fin.ext (by
      match a with
      | ⟨0, _⟩ => exact (rhs_shared _ _).trans hk
      | ⟨1, _⟩ => exact rhs_col _ _)
  rw [el, er]

/-! ## The blocks at a grid point -/

/-- The body reads and writes its buffers whole: at offsets zero on both axes. -/
theorem zero_offsets : (![0, 0] : Fin 2 → Nat) = fun _ => 0 := funext fun a => by fin_cases a <;> rfl

/-- The three index maps over the ten points: the hidden-feature window moves down the rows with the output window and
    stays at column block 0; the weight window is block (0, 0) at every point; the output's row block is one of
    0 … 9 and its column block is 0. -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Each of the ten row blocks of the output is some point's. -/
theorem row_block_onto : ∀ r : Fin 10, ∃ t : Fin cfg3.N, win3_2.index t (0 : Fin 2) = r.val ∧ win3_2.index t (1 : Fin 2) = 0 :=
  (by decide +kernel : ∀ r : Fin 10, ∃ t : Fin grid3.N, win3_2.index t (0 : Fin 2) = r.val ∧ win3_2.index t (1 : Fin 2) = 0)

/-- The hidden-feature window's block at point `t` is rows `5000 b … 5000 b + 4999` of the hidden-feature array, `b` the
    output's row block at `t`: a block's coordinate is the block index times the block's extent plus the coordinate
    inside. -/
theorem hidden_rows (c : Dev nD) (t : Fin cfg3.N) (y : S5000x128.Idx) (k : S50000x128.Idx)
    (hk0 : (k 0).val = win3_2.index t (0 : Fin 2) * 5000 + (y 0).val) (hk1 : (k 1).val = (y 1).val) :
    (iblk3 V c 0 t : Vec Ideal S5000x128 .f32) y = (V c main_v44 : S50000x128.Idx → EReal) k := by
  obtain ⟨e0, e1, -, -, -, -⟩ := block_indices t
  unfold iblk3
  rw [View.read_apply]
  show V c main_v44 _ = V c main_v44 _
  congr 1
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- The weight window's block is the whole 128 × 40 weight array at every point. -/
theorem weight_whole (c : Dev nD) (t : Fin cfg3.N) (y : S128x40.Idx) :
    (iblk3 V c 1 t : Vec Ideal S128x40 .f32) y = (V c main_arg4 : S128x40.Idx → EReal) y := by
  obtain ⟨-, -, e2, e3, -, -⟩ := block_indices t
  unfold iblk3
  rw [View.read_apply]
  show V c main_arg4 _ = V c main_arg4 _
  congr 1
  funext a
  apply Fin.ext
  match a with
  | ⟨0, _⟩ => show win3_1.index t (0 : Fin 2) * 128 + 1 * (y 0).val = (y 0).val; rw [e2]; omega
  | ⟨1, _⟩ => show win3_1.index t (1 : Fin 2) * 40 + 1 * (y 1).val = (y 1).val; rw [e3]; omega

/-- One entry of one block: if the first block is rows `5000 b …` of `a0` and the second is `a2`, the body's entry `j`
    is entry `i` of `matProduct a0 a2` for the array index `i` under `j` (row `5000 b + j₀`, column `j₁`) — both are
    the same sum over the shared axis, term by term. -/
theorem block_entry (a0 : S50000x128.Idx → EReal) (a2 : S128x40.Idx → EReal)
    (x0 : Vec Ideal S5000x128 .f32) (x1 : Vec Ideal S128x40 .f32) (b : Nat) (j : S5000x40.Idx) (i : S50000x40.Idx)
    (hi0 : (i 0).val = b * 5000 + (j 0).val) (hi1 : (i 1).val = (j 1).val)
    (h0 : ∀ (y : S5000x128.Idx) (k : S50000x128.Idx), (k 0).val = b * 5000 + (y 0).val → (k 1).val = (y 1).val → x0 y = a0 k)
    (h1 : ∀ y : S128x40.Idx, x1 y = a2 y) :
    k3_pay1 x0 x1 j = Cert.Gcn.matProduct (n := 50000) (k := 128) (p := 40) a0 a2 i := by
  obtain ⟨p, q, rfl⟩ : ∃ (p : Fin 5000) (q : Fin 40), j = ix2 p q := ⟨j 0, j 1, eq_ix2 j⟩
  rw [product_at]
  unfold Cert.Gcn.matProduct
  refine Finset.sum_congr rfl fun l _ => ?_
  have hq : (⟨(i 1).val, idx2_lt1 i⟩ : Fin 40) = q := Fin.ext hi1
  rw [hq, h1, h0 (ix2 p l) (ix2 (⟨(i 0).val, idx2_lt0 i⟩ : Fin 50000) l) hi0 rfl]

/-- What point `t` writes back is block `t` of `matProduct h W2`. -/
theorem written_block (c : Dev nD) (t : Fin cfg3.N) :
    (dat3 V c).flushed 2 t = ((cfg3.win 2).blk t).view.read (Elt Ideal)
      (Cert.Gcn.matProduct (n := 50000) (k := 128) (p := 40) (V c main_v44) (V c main_arg4)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x40) zero_offsets]
  obtain ⟨-, -, -, -, -, e5⟩ := block_indices t
  funext j
  rw [View.read_apply]
  refine block_entry (V c main_v44) (V c main_arg4) (iblk3 V c 0 t) (iblk3 V c 1 t) (win3_2.index t (0 : Fin 2)) j _ ?_ ?_
    (fun y k hk0 hk1 => hidden_rows V c t y k hk0 hk1) (fun y => weight_whole V c t y)
  · show win3_2.index t (0 : Fin 2) * 5000 + 1 * (j 0).val = _; omega
  · show win3_2.index t (1 : Fin 2) * 40 + 1 * (j 1).val = _; rw [e5]; omega

/-! ## The ten blocks tile the array -/

/-- An index of the output array is in point `t`'s block iff each coordinate is in the block's range on its axis. -/
theorem mem_block (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v45).slice (win3_2.rect t)).set ↔ _
  rw [View.set_slice_whole, Rect.mem_set_unit]
  exact Iff.rfl

/-- Every index of the output array is in the block of the point whose row block is `row / 5000`. -/
theorem blocks_cover (i : S50000x40.Idx) : ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, q0, q1⟩ := row_block_onto ⟨(i 0).val / 5000, by omega⟩
  have q0' : win3_2.index t (0 : Fin 2) = (i 0).val / 5000 := q0
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- The output array after the region's last grid point. -/
theorem array_eq (c : Dev nD) :
    (dat3 V c).arrAt 2 cfg3.N = Cert.Gcn.matProduct (n := 50000) (k := 128) (p := 40) (V c main_v44) (V c main_arg4) := by
  exact (dat3 V c).arrAt_eq_of_cover 2
    (Cert.Gcn.matProduct (n := 50000) (k := 128) (p := 40) (V c main_v44) (V c main_arg4))
    (fun t _ => written_block V c t) blocks_cover

end Cert.KernelIdeal.NodeLinear40

end
-- ==== Proof.EdgeScale40.lean ====
/-
  Region 4 (the fifth pallas_call): every edge's gathered 40-wide feature row times that edge's normalisation
  coefficient, 85 blocks of 10000 edges; the array ends holding `scaleRows gathered coef`.
  Stated at any contents `V` of the TensorCore's buffers at the region's entry.
-/
import proofs.«105650_j28802050687441_1_alg».proof.Proof.Gen.KernelIdeal.Frame
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.EdgeScale40

open Cert.KernelIdeal Cert.KernelIdeal.Gen ValueIdx

variable (V : (c : Dev nD) → (b : Ref sig .tc) → Buf (Elt Ideal) ((c : Thread nD τ).loc b))

/-- A whole-block rectangle starts at the origin on both axes. -/
theorem origin_eq : (![0, 0] : Fin 2 → Nat) = fun _ => 0 := funext fun a => by fin_cases a <;> rfl

/-- The body's value at row `p`, column `q` of a 10000 × 40 block: the feature entry there times the entry of the
    one-column coefficient block in row `p`. Both reshapes keep their shape and are the identity; the broadcast along
    the 40 columns reads the coefficient at column `0`; the product is entrywise. -/
theorem pay_apply (x0 : Vec Ideal S10000x40 .f32) (x1 : Vec Ideal S10000x1 .f32) (p : Fin 10000) (q : Fin 40) :
    k4_pay1 x0 x1 (ix2 p q) = x0 (ix2 p q) * x1 (ix2 p (0 : Fin 1)) := by
  unfold k4_pay1
  simp only [shapeCast_self]
  rw [mulf_apply]
  congr 1
  refine broadcastTo_apply _ _ _ _ fun a => ?_
  match a with
  | ⟨0, _⟩ => rfl
  | ⟨1, _⟩ => rfl

/-- From blocks to arrays, at one entry. If the feature block at `(p, q)` is the array `g` at `i`, and the coefficient
    block at `(p, 0)` is the array `s` at row `i 0`, then the body's value at `(p, q)` is `scaleRows g s` at `i`. -/
theorem entry_of_blocks (g : S850000x40.Idx → EReal) (s : S850000x1.Idx → EReal)
    (x0 : Vec Ideal S10000x40 .f32) (x1 : Vec Ideal S10000x1 .f32)
    (p : Fin 10000) (q : Fin 40) (j : S10000x40.Idx) (hj : j = ix2 p q) (i : S850000x40.Idx)
    (h0 : x0 (ix2 p q) = g i)
    (h1 : x1 (ix2 p (0 : Fin 1)) = s (ix2 (⟨(i 0).val, idx2_lt0 i⟩ : Fin 850000) (0 : Fin 1))) :
    k4_pay1 x0 x1 j = Cert.Gcn.scaleRows g s i := by
  subst hj
  rw [pay_apply, h0, h1]
  rfl

/-- The three index maps over the 85 grid points: each window's block row is the point's number and its block column
    is `0`, so the feature, coefficient and output blocks of a point all sit over the same 10000 rows. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `scaleRows` of the two input arrays. An entry `j` of the output block
    sits in the array at `index × size + j` on each axis; the feature block is read at the same place, and the coefficient
    block at the same row and column `0`. -/
theorem flushed_eq (c : Dev nD) (t : Fin cfg4.N) :
    (dat4 V c).flushed 2 t
      = ((cfg4.win 2).blk t).view.read (Elt Ideal)
          (Cert.Gcn.scaleRows (n := 850000) (p := 40) (V c main_v52) (V c main_v30)) := by
  show (cfg4.win 2).cut (grid4.coords t) ((dat4 V c).after 2 t) = _
  rw [after4_2]
  unfold out4_2
  rw [View.canon_unit_zero origin_eq]
  simp only [View.ld_unit_zero (S := S10000x40) origin_eq, View.ld_unit_zero (S := S10000x1) origin_eq]
  obtain ⟨a0, a1, b0, b1, o0, o1⟩ := index_facts t
  funext j
  show k4_pay1 (iblk4 V c 0 t) (iblk4 V c 1 t) j
    = Cert.Gcn.scaleRows (V c main_v52) (V c main_v30) (((cfg4.win 2).blk t).view.emb j)
  refine entry_of_blocks _ _ _ _ (j 0) (j 1) j (eq_ix2 j) _ ?_ ?_
  · -- the feature block's entry (j 0, j 1) and the output block's entry j are the same place of the array
    show V c main_v52 (((cfg4.win 0).blk t).view.emb (ix2 (j 0) (j 1))) = V c main_v52 (((cfg4.win 2).blk t).view.emb j)
    refine congrArg _ (funext fun a => Fin.ext ?_)
    match a with
    | ⟨0, _⟩ =>
      show win4_0.index t (0 : Fin 2) * 10000 + 1 * (j 0).val = win4_2.index t (0 : Fin 2) * 10000 + 1 * (j 0).val
      omega
    | ⟨1, _⟩ =>
      show win4_0.index t (1 : Fin 2) * 40 + 1 * (j 1).val = win4_2.index t (1 : Fin 2) * 40 + 1 * (j 1).val
      omega
  · -- the coefficient block's entry (j 0, 0) is the coefficient array at the output entry's row, column 0
    show V c main_v30 (((cfg4.win 1).blk t).view.emb (ix2 (j 0) (0 : Fin 1)))
        = V c main_v30 (ix2 ⟨(((cfg4.win 2).blk t).view.emb j 0).val, _⟩ (0 : Fin 1))
    refine congrArg _ (funext fun a => Fin.ext ?_)
    match a with
    | ⟨0, _⟩ =>
      show win4_1.index t (0 : Fin 2) * 10000 + 1 * (j 0).val = win4_2.index t (0 : Fin 2) * 10000 + 1 * (j 0).val
      omega
    | ⟨1, _⟩ =>
      show win4_1.index t (1 : Fin 2) * 1 + 1 * 0 = 0
      omega

/-- An index of the array lies in point `t`'s output block iff, on each axis, its coordinate lies in the block's range
    `[index × size, index × size + size)`. -/
theorem mem_block (t : Fin cfg4.N) (i : S850000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v53).slice (win4_2.rect t)).set ↔ _
  rw [View.set_slice_whole, Rect.mem_set_unit]
  exact Iff.rfl

/-- The 85 blocks tile the array: row `r` lies in the block of point `r / 10000` (850000 = 85 · 10000), and every
    one of the 40 columns lies in the one block column. -/
theorem covered (i : S850000x40.Idx) :
    ∃ t : Fin cfg4.N, (cfg4.win 2).flush t = true ∧ i ∈ ((cfg4.win 2).blk t).view.set := by
  have hi0 : (i 0).val < 850000 := (i 0).isLt
  have hi1 : (i 1).val < 40 := (i 1).isLt
  have ht : (i 0).val / 10000 < 85 := by omega
  obtain ⟨-, -, -, -, o0, o1⟩ := index_facts ⟨(i 0).val / 10000, ht⟩
  have r0 : win4_2.index ⟨(i 0).val / 10000, ht⟩ (0 : Fin 2) = (i 0).val / 10000 := o0
  refine ⟨⟨(i 0).val / 10000, ht⟩, flush4_2 _, ?_⟩
  rw [mem_block]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    omega
  | ⟨1, _⟩ =>
    show win4_2.index ⟨(i 0).val / 10000, ht⟩ (1 : Fin 2) * 40 ≤ (i 1).val
      ∧ (i 1).val < win4_2.index ⟨(i 0).val / 10000, ht⟩ (1 : Fin 2) * 40 + 40
    omega

/-- The output array after the region's last grid point. -/
theorem array_eq (c : Dev nD) :
    (dat4 V c).arrAt 2 cfg4.N = Cert.Gcn.scaleRows (n := 850000) (p := 40) (V c main_v52) (V c main_v30) :=
  (dat4 V c).arrAt_eq_of_cover 2 (Cert.Gcn.scaleRows (n := 850000) (p := 40) (V c main_v52) (V c main_v30))
    (fun t _ => flushed_eq V c t) covered

end Cert.KernelIdeal.EdgeScale40

end
-- ==== Proof.BiasAdd40.lean ====
/-
  Region 5 (the sixth pallas_call): the second layer's bias row added to every node's aggregated row, ten blocks
  of 5000 nodes; the array ends holding `addRow agg b2`.
  Stated at any contents `V` of the TensorCore's buffers at the region's entry.
-/
import proofs.«105650_j28802050687441_1_alg».proof.Proof.Gen.KernelIdeal.Frame
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.BiasAdd40

open Cert.KernelIdeal Cert.KernelIdeal.Gen ValueIdx

variable (V : (c : Dev nD) → (b : Ref sig .tc) → Buf (Elt Ideal) ((c : Thread nD τ).loc b))

/-- The body's loads start at offset zero on both axes. -/
theorem zero_offsets : (![0, 0] : Fin 2 → Nat) = fun _ => 0 := funext fun a => by fin_cases a <;> rfl

/-- The body's stored value at row `p`, column `q` of a block: the same-shape casts are identities and the bias
    row is read at row 0 and column `q` whatever `p` is. -/
theorem payload_apply (x0 : Vec Ideal S5000x40 .f32) (x1 : Vec Ideal S1x40 .f32) (p : Fin 5000) (q : Fin 40) :
    k5_pay1 x0 x1 (ix2 p q) = x0 (ix2 p q) + x1 (ix2 (0 : Fin 1) q) := by
  unfold k5_pay1
  simp only [addf_apply, shapeCast_self]
  rw [broadcastTo_apply x1 broadcasts_S1x40_S5000x40 (ix2 p q) (ix2 (0 : Fin 1) q) (fun a => ?_)]
  match a with
  | ⟨0, _⟩ => rfl
  | ⟨1, _⟩ => rfl

/-- The same at any index of the block, its column named by its value. -/
theorem payload_at (x0 : Vec Ideal S5000x40 .f32) (x1 : Vec Ideal S1x40 .f32) (j : S5000x40.Idx) :
    k5_pay1 x0 x1 j = x0 j + x1 (ix2 (0 : Fin 1) (⟨(j 1).val, idx2_lt1 j⟩ : Fin 40)) := by
  obtain ⟨p, q, rfl⟩ : ∃ (p : Fin 5000) (q : Fin 40), j = ix2 p q := ⟨j 0, j 1, eq_ix2 j⟩
  exact payload_apply x0 x1 p q

/-- One entry of the whole-array function from one entry of each input: the aggregated array read at an index with
    the coordinates of `i`, the bias row read at row 0 and `i`'s column. -/
theorem entry_eq (a : S50000x40.Idx → EReal) (b : S1x40.Idx → EReal) (i i0 : S50000x40.Idx) (i1 : S1x40.Idx)
    (hr : (i0 (0 : Fin 2)).val = (i (0 : Fin 2)).val) (hc : (i0 (1 : Fin 2)).val = (i (1 : Fin 2)).val)
    (hb0 : (i1 (0 : Fin 2)).val = 0) (hb1 : (i1 (1 : Fin 2)).val = (i (1 : Fin 2)).val) :
    a i0 + b i1 = Cert.Gcn.addRow a b i := by
  have e0 : i0 = i := Shape.idx_ext₂ hr hc
  have e1 : i1 = ix2 (0 : Fin 1) (⟨(i 1).val, idx2_lt1 i⟩ : Fin 40) := Shape.idx_ext₂ hb0 hb1
  rw [e0, e1]; rfl

/-- The printed index maps over the ten grid points: the aggregated rows' window and the output's sit at the same
    block row, which is the point's number, and at column block 0; the bias row's window stays at block (0, 0). -/
theorem index_maps : ∀ t : Fin cfg5.N,
    win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) = t.val :=
  (by decide +kernel : ∀ t : Fin grid5.N, _)

/-- What point `t` writes back is block `t` of the whole-array function of the two input arrays. -/
theorem flushed_eq (c : Dev nD) (t : Fin cfg5.N) :
    (dat5 V c).flushed 2 t = ((cfg5.win 2).blk t).view.read (Elt Ideal)
      (Cert.Gcn.addRow (n := 50000) (p := 40) (V c main_v56) (V c main_v57)) := by
  show (cfg5.win 2).cut (grid5.coords t) ((dat5 V c).after 2 t) = _
  rw [after5_2]
  unfold out5_2
  rw [View.canon_unit_zero zero_offsets]
  simp only [View.ld_unit_zero (S := S5000x40) zero_offsets, View.ld_unit_zero (S := S1x40) zero_offsets]
  obtain ⟨e0, e1, e2, e3, e4, e5⟩ := index_maps t
  funext j
  refine (payload_at _ _ _).trans ?_
  refine entry_eq (V c main_v56) (V c main_v57) (((cfg5.win 2).blk t).view.emb j)
    (((cfg5.win 0).blk t).view.emb j)
    (((cfg5.win 1).blk t).view.emb (ix2 (0 : Fin 1) (⟨(j 1).val, (j 1).isLt⟩ : Fin 40))) ?_ ?_ ?_ ?_
  · show win5_0.index t (0 : Fin 2) * 5000 + 1 * (j 0).val = win5_2.index t (0 : Fin 2) * 5000 + 1 * (j 0).val
    omega
  · show win5_0.index t (1 : Fin 2) * 40 + 1 * (j 1).val = win5_2.index t (1 : Fin 2) * 40 + 1 * (j 1).val
    omega
  · show win5_1.index t (0 : Fin 2) * 1 + 1 * 0 = 0
    omega
  · show win5_1.index t (1 : Fin 2) * 40 + 1 * (j 1).val = win5_2.index t (1 : Fin 2) * 40 + 1 * (j 1).val
    omega

/-- An index of the array is in point `t`'s block iff each coordinate is in the block's range on its axis. -/
theorem mem_block (t : Fin cfg5.N) (i : S50000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v58).slice (win5_2.rect t)).set ↔ _
  rw [View.set_slice_whole, Rect.mem_set_unit]
  exact Iff.rfl

/-- The ten blocks of 5000 rows tile the 50000 rows: row `r` is in the block of point `r / 5000`. -/
theorem covered (i : S50000x40.Idx) :
    ∃ t : Fin cfg5.N, (cfg5.win 2).flush t = true ∧ i ∈ ((cfg5.win 2).blk t).view.set := by
  have hr : (i 0).val < 50000 := (i 0).isLt
  have hc : (i 1).val < 40 := (i 1).isLt
  obtain ⟨t, ht⟩ : ∃ t : Fin cfg5.N, t.val = (i 0).val / 5000 :=
    ⟨⟨(i 0).val / 5000, by show _ < 10; omega⟩, rfl⟩
  obtain ⟨-, -, e2, -, -, e5⟩ := index_maps t
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 40 ≤ (i 1).val ∧ (i 1).val < win5_2.index t (1 : Fin 2) * 40 + 40
    omega

/-- The output array after the region's last grid point. -/
theorem array_eq (c : Dev nD) :
    (dat5 V c).arrAt 2 cfg5.N = Cert.Gcn.addRow (n := 50000) (p := 40) (V c main_v56) (V c main_v57) :=
  (dat5 V c).arrAt_eq_of_cover 2 _ (fun t _ => flushed_eq V c t) covered

end Cert.KernelIdeal.BiasAdd40

end
-- ==== Proof.KChain.lean ====
/-
  The kernel program's run, read: what each buffer holds at each boundary of @main (after a stretch of host operations, or
  after a pallas_call), as a term of the six inputs. @main is: the edge lists, the degrees, their inverse square roots and
  the edge coefficients on the host; then per layer a pallas_call for the dense product, a host gather of the source rows,
  a pallas_call scaling every edge's row by its coefficient, a host scatter-add at the destination ids, and a pallas_call
  adding the bias (with the rectifier in the first layer).
  Two kinds of step. A buffer that no operation of a stretch writes, and that is not an output array of a pallas_call, holds
  after it what it held before (the lemmas named `…_atK` that only carry a value to boundary K). A buffer an operation
  writes holds that operation's function of its operands' contents; an output array of a pallas_call holds the whole-array
  function the region computes (NodeLinear128, EdgeScale128, BiasRelu128, NodeLinear40, EdgeScale40, BiasAdd40) of the
  region's input arrays as it finds them.
  The boundaries' contents `W0 … W13` are the frame's; `e`, `x`, … below are the inputs as launched.
-/
import proofs.«105650_j28802050687441_1_alg».proof.Proof.Gen.KernelIdeal.Frame
import proofs.«105650_j28802050687441_1_alg».proof.Proof.GcnSpec
import proofs.«105650_j28802050687441_1_alg».proof.Proof.Spec
import proofs.«105650_j28802050687441_1_alg».proof.Proof.NodeLinear128
import proofs.«105650_j28802050687441_1_alg».proof.Proof.EdgeScale128
import proofs.«105650_j28802050687441_1_alg».proof.Proof.BiasRelu128
import proofs.«105650_j28802050687441_1_alg».proof.Proof.NodeLinear40
import proofs.«105650_j28802050687441_1_alg».proof.Proof.EdgeScale40
import proofs.«105650_j28802050687441_1_alg».proof.Proof.BiasAdd40
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.Walk

open Cert.KernelIdeal Cert.KernelIdeal.Gen Cert.Gcn

/-- A buffer none of a stretch's operations writes holds after the stretch what it held before it. -/
macro "keep_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-- The inputs as launched. -/
abbrev x (c : Dev nD) : FVec Ideal Cert.ReferenceIdeal.S50000x128 .f32 := m ((c : Thread nD τ).loc main_arg0)
abbrev e (c : Dev nD) : IVec Cert.ReferenceIdeal.S2x800000 32 := m ((c : Thread nD τ).loc main_arg1)
abbrev w1 (c : Dev nD) : FVec Ideal Cert.ReferenceIdeal.S128x128 .f32 := m ((c : Thread nD τ).loc main_arg2)
abbrev b1 (c : Dev nD) : FVec Ideal Cert.ReferenceIdeal.S128 .f32 := m ((c : Thread nD τ).loc main_arg3)
abbrev w2 (c : Dev nD) : FVec Ideal Cert.ReferenceIdeal.S128x40 .f32 := m ((c : Thread nD τ).loc main_arg4)
abbrev b2 (c : Dev nD) : FVec Ideal Cert.ReferenceIdeal.S40 .f32 := m ((c : Thread nD τ).loc main_arg5)

/-! ## What each stage of the kernel's program computes, as a term of the inputs -/

/-- Every edge's coefficient, as the one-column array the scaling regions read. -/
def coefColumn (c : Dev nD) : FVec Ideal S850000x1 .f32 :=
  shapeCast S850000x1 (edgeCoef (F := Ideal) (invSqrt (degree (dstIds (e m c)))) (e m c)) shapeCasts_S850000_S850000x1
/-- `x · W1`. -/
def hidden0 (c : Dev nD) : FVec Ideal Cert.ReferenceIdeal.S50000x128 .f32 := matProduct (n := 50000) (k := 128) (p := 128) (x m c) (w1 m c)
/-- Its rows gathered at the edges' source ids. -/
def gathered1 (c : Dev nD) : FVec Ideal Cert.ReferenceIdeal.S850000x128 .f32 :=
  Host.gather Cert.ReferenceIdeal.gather_S50000x128_S850000x1_S850000x128_1_0_n_n_0_1_1128 (hidden0 m c) (asColumn (wrapNeg (srcIds (e m c))))
/-- Every edge's row times the edge's coefficient. -/
def message1 (c : Dev nD) : FVec Ideal Cert.ReferenceIdeal.S850000x128 .f32 := scaleRows (n := 850000) (p := 128) (gathered1 m c) (coefColumn m c)
/-- The messages added up at the edges' raw destination ids. -/
def aggregated1 (c : Dev nD) : FVec Ideal Cert.ReferenceIdeal.S50000x128 .f32 :=
  Host.scatterAdd Cert.ReferenceIdeal.scatter_S50000x128_S850000x1_S850000x128_1_0_0_1 (broadcastInDim Cert.ReferenceIdeal.S50000x128 ![] Cert.ReferenceIdeal.Gen.bcast_S_S50000x128 (constant Cert.ReferenceIdeal.S_ .f32 0x00000000#32)) (asColumn (dstIds (e m c))) (message1 m c)
/-- The first bias as one row. -/
def biasRow1 (c : Dev nD) : FVec Ideal S1x128 .f32 := shapeCast S1x128 (b1 m c) shapeCasts_S128_S1x128
/-- The hidden features: bias added, then the rectifier. -/
def hidden1 (c : Dev nD) : FVec Ideal Cert.ReferenceIdeal.S50000x128 .f32 := addRowRelu (n := 50000) (p := 128) (aggregated1 m c) (biasRow1 m c)
/-- `h · W2`. -/
def hidden2 (c : Dev nD) : FVec Ideal Cert.ReferenceIdeal.S50000x40 .f32 := matProduct (n := 50000) (k := 128) (p := 40) (hidden1 m c) (w2 m c)
def gathered2 (c : Dev nD) : FVec Ideal Cert.ReferenceIdeal.S850000x40 .f32 :=
  Host.gather Cert.ReferenceIdeal.gather_S50000x40_S850000x1_S850000x40_1_0_n_n_0_1_140 (hidden2 m c) (asColumn (wrapNeg (srcIds (e m c))))
def message2 (c : Dev nD) : FVec Ideal Cert.ReferenceIdeal.S850000x40 .f32 := scaleRows (n := 850000) (p := 40) (gathered2 m c) (coefColumn m c)
def aggregated2 (c : Dev nD) : FVec Ideal Cert.ReferenceIdeal.S50000x40 .f32 :=
  Host.scatterAdd Cert.ReferenceIdeal.scatter_S50000x40_S850000x1_S850000x40_1_0_0_1 (broadcastInDim Cert.ReferenceIdeal.S50000x40 ![] Cert.ReferenceIdeal.Gen.bcast_S_S50000x40 (constant Cert.ReferenceIdeal.S_ .f32 0x00000000#32)) (asColumn (dstIds (e m c))) (message2 m c)
/-- The second bias as one row. -/
def biasRow2 (c : Dev nD) : FVec Ideal S1x40 .f32 := shapeCast S1x40 (b2 m c) shapeCasts_S40_S1x40
/-- The kernel's result. -/
def output (c : Dev nD) : FVec Ideal Cert.ReferenceIdeal.S50000x40 .f32 := addRow (n := 50000) (p := 40) (aggregated2 m c) (biasRow2 m c)

/-! ## The first host stretch: edge lists and degrees -/

theorem src_at1 (c : Dev nD) : W1 m ρ c (Proc.devRef .tc main_v5) = srcIds (e m c) := by
  show StableHlo.after hostOps0 (W0 m ρ c) (Proc.devRef .tc main_v5) = _
  after_results <;> rfl

theorem dst_at1 (c : Dev nD) : W1 m ρ c (Proc.devRef .tc main_v6) = dstIds (e m c) := by
  show StableHlo.after hostOps0 (W0 m ρ c) (Proc.devRef .tc main_v6) = _
  after_results <;> rfl

/-- The kernel counts the degrees at the RAW destination ids. -/
theorem deg_at1 (c : Dev nD) : W1 m ρ c (Proc.devRef .tc main_v10) = degree (F := Ideal) (dstIds (e m c)) := by
  show StableHlo.after hostOps0 (W0 m ρ c) (Proc.devRef .tc main_v10) = _
  after_results <;> rfl

theorem positive_at1 (c : Dev nD) : W1 m ρ c (Proc.devRef .tc main_v12)
    = cmpf (F := Ideal) .ogt (degree (dstIds (e m c))) (broadcastInDim S50000 ![] bcast_S_S50000 (constant S_ .f32 0x00000000#32)) := by
  show StableHlo.after hostOps0 (W0 m ρ c) (Proc.devRef .tc main_v12) = _
  after_results <;> rfl

theorem rsqrt_at1 (c : Dev nD) : W1 m ρ c (Proc.devRef .tc main_v13) = Host.rsqrt (degree (F := Ideal) (dstIds (e m c))) := by
  show StableHlo.after hostOps0 (W0 m ρ c) (Proc.devRef .tc main_v13) = _
  after_results <;> rfl

theorem zero_at1 (c : Dev nD) : W1 m ρ c (Proc.devRef .tc main_cst_2) = constant (F := Ideal) S_ .f32 0x00000000#32 := by
  show StableHlo.after hostOps0 (W0 m ρ c) (Proc.devRef .tc main_cst_2) = _
  after_results <;> rfl

/-! ## The `where`: the inverse square roots of the degrees -/

theorem dis_at2 (c : Dev nD) : W2 m ρ c (Proc.devRef .tc main_v14) = invSqrt (F := Ideal) (degree (dstIds (e m c))) := by
  show StableHlo.after hostOps0_1 (W1 m ρ c) (Proc.devRef .tc main_v14) = _
  have h12 := positive_at1 m ρ c
  have h13 := rsqrt_at1 m ρ c
  have h0 := zero_at1 m ρ c
  generalize W1 m ρ c = X at h12 h13 h0 ⊢
  after_results
  simp only [StableHlo.TRef.ofBuf, StableHlo.TRef.toBuf, cast_eq]
  rw [h12, h13, h0]
  rfl

theorem src_at2 (c : Dev nD) : W2 m ρ c (Proc.devRef .tc main_v5) = srcIds (e m c) :=
  (show W2 m ρ c (Proc.devRef .tc main_v5) = W1 m ρ c (Proc.devRef .tc main_v5) by keep_host hostOps0_1).trans (src_at1 m ρ c)

theorem dst_at2 (c : Dev nD) : W2 m ρ c (Proc.devRef .tc main_v6) = dstIds (e m c) :=
  (show W2 m ρ c (Proc.devRef .tc main_v6) = W1 m ρ c (Proc.devRef .tc main_v6) by keep_host hostOps0_1).trans (dst_at1 m ρ c)

/-! ## The edge coefficients -/

set_option maxHeartbeats 1000000 in
theorem coef_at3 (c : Dev nD) : W3 m ρ c (Proc.devRef .tc main_v30) = coefColumn m c := by
  show StableHlo.after hostOps0_2 (W2 m ρ c) (Proc.devRef .tc main_v30) = _
  have hs := src_at2 m ρ c
  have hd := dst_at2 m ρ c
  have hi := dis_at2 m ρ c
  generalize W2 m ρ c = X at hs hd hi ⊢
  after_results_simp
  rw [hs, hd, hi]
  rfl

theorem src_at3 (c : Dev nD) : W3 m ρ c (Proc.devRef .tc main_v5) = srcIds (e m c) :=
  (show W3 m ρ c (Proc.devRef .tc main_v5) = W2 m ρ c (Proc.devRef .tc main_v5) by keep_host hostOps0_2).trans (src_at2 m ρ c)

theorem dst_at3 (c : Dev nD) : W3 m ρ c (Proc.devRef .tc main_v6) = dstIds (e m c) :=
  (show W3 m ρ c (Proc.devRef .tc main_v6) = W2 m ρ c (Proc.devRef .tc main_v6) by keep_host hostOps0_2).trans (dst_at2 m ρ c)

/-- No operation before the first region writes an input. -/
theorem x_at3 (c : Dev nD) : W3 m ρ c (Proc.devRef .tc main_arg0) = x m c :=
  calc W3 m ρ c (Proc.devRef .tc main_arg0)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = x m c := rfl

theorem w1_at3 (c : Dev nD) : W3 m ρ c (Proc.devRef .tc main_arg2) = w1 m c :=
  calc W3 m ρ c (Proc.devRef .tc main_arg2)
    _ = W2 m ρ c (Proc.devRef .tc main_arg2) := by keep_host hostOps0_2
    _ = W1 m ρ c (Proc.devRef .tc main_arg2) := by keep_host hostOps0_1
    _ = W0 m ρ c (Proc.devRef .tc main_arg2) := by keep_host hostOps0
    _ = w1 m c := rfl

/-! ## Region 0: `x · W1` -/

theorem hidden0_at4 (c : Dev nD) : W4 m ρ c (Proc.devRef .tc main_v31) = hidden0 m c := by
  refine (W4_arr m ρ c 2).trans ((NodeLinear128.array_eq (V3 m ρ) c).trans ?_)
  show matProduct (n := 50000) (k := 128) (p := 128) (W3 m ρ c (Proc.devRef .tc main_arg0)) (W3 m ρ c (Proc.devRef .tc main_arg2)) = _
  rw [x_at3, w1_at3]
  rfl

theorem src_at4 (c : Dev nD) : W4 m ρ c (Proc.devRef .tc main_v5) = srcIds (e m c) :=
  (W4_of_ne m ρ c main_v5 (by decide)).trans (src_at3 m ρ c)
theorem dst_at4 (c : Dev nD) : W4 m ρ c (Proc.devRef .tc main_v6) = dstIds (e m c) :=
  (W4_of_ne m ρ c main_v6 (by decide)).trans (dst_at3 m ρ c)
theorem coef_at4 (c : Dev nD) : W4 m ρ c (Proc.devRef .tc main_v30) = coefColumn m c :=
  (W4_of_ne m ρ c main_v30 (by decide)).trans (coef_at3 m ρ c)

/-! ## The first gather -/

theorem gathered1_at5 (c : Dev nD) : W5 m ρ c (Proc.devRef .tc main_v38) = gathered1 m c := by
  show StableHlo.after hostOps1 (W4 m ρ c) (Proc.devRef .tc main_v38) = _
  have hh := hidden0_at4 m ρ c
  have hs := src_at4 m ρ c
  generalize W4 m ρ c = X at hh hs ⊢
  after_results
  rw [hh, hs]
  rfl

theorem dst_at5 (c : Dev nD) : W5 m ρ c (Proc.devRef .tc main_v6) = dstIds (e m c) :=
  (show W5 m ρ c (Proc.devRef .tc main_v6) = W4 m ρ c (Proc.devRef .tc main_v6) by keep_host hostOps1).trans (dst_at4 m ρ c)
theorem src_at5 (c : Dev nD) : W5 m ρ c (Proc.devRef .tc main_v5) = srcIds (e m c) :=
  (show W5 m ρ c (Proc.devRef .tc main_v5) = W4 m ρ c (Proc.devRef .tc main_v5) by keep_host hostOps1).trans (src_at4 m ρ c)
theorem coef_at5 (c : Dev nD) : W5 m ρ c (Proc.devRef .tc main_v30) = coefColumn m c :=
  (show W5 m ρ c (Proc.devRef .tc main_v30) = W4 m ρ c (Proc.devRef .tc main_v30) by keep_host hostOps1).trans (coef_at4 m ρ c)

/-! ## Region 1: the first layer's messages -/

theorem message1_at6 (c : Dev nD) : W6 m ρ c (Proc.devRef .tc main_v39) = message1 m c := by
  refine (W6_arr m ρ c 2).trans ((EdgeScale128.array_eq (V5 m ρ) c).trans ?_)
  show scaleRows (n := 850000) (p := 128) (W5 m ρ c (Proc.devRef .tc main_v38)) (W5 m ρ c (Proc.devRef .tc main_v30)) = _
  rw [gathered1_at5, coef_at5]
  rfl

theorem dst_at6 (c : Dev nD) : W6 m ρ c (Proc.devRef .tc main_v6) = dstIds (e m c) :=
  (W6_of_ne m ρ c main_v6 (by decide)).trans (dst_at5 m ρ c)
theorem src_at6 (c : Dev nD) : W6 m ρ c (Proc.devRef .tc main_v5) = srcIds (e m c) :=
  (W6_of_ne m ρ c main_v5 (by decide)).trans (src_at5 m ρ c)
/-- The coefficient column is an INPUT array of region 1: a region leaves its input arrays as it found them. -/
theorem coef_at6 (c : Dev nD) : W6 m ρ c (Proc.devRef .tc main_v30) = coefColumn m c :=
  ((W6_arr m ρ c 1).trans (((dat1 (V5 m ρ) c).arrAt_in 1 rfl _).trans (A_eq1 (V5 m ρ) c 1))).trans (coef_at5 m ρ c)

/-- The first bias, never written, from the launch to the second scatter's stretch. -/
theorem b1_at6 (c : Dev nD) : W6 m ρ c (Proc.devRef .tc main_arg3) = b1 m c :=
  calc W6 m ρ c (Proc.devRef .tc main_arg3)
    _ = W5 m ρ c (Proc.devRef .tc main_arg3) := W6_of_ne m ρ c main_arg3 (by decide)
    _ = W4 m ρ c (Proc.devRef .tc main_arg3) := by keep_host hostOps1
    _ = W3 m ρ c (Proc.devRef .tc main_arg3) := W4_of_ne m ρ c main_arg3 (by decide)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = b1 m c := rfl

/-! ## The first scatter-add, and the bias as a row -/

theorem aggregated1_at7 (c : Dev nD) : W7 m ρ c (Proc.devRef .tc main_v42) = aggregated1 m c := by
  show StableHlo.after hostOps2 (W6 m ρ c) (Proc.devRef .tc main_v42) = _
  have hm := message1_at6 m ρ c
  have hd := dst_at6 m ρ c
  generalize W6 m ρ c = X at hm hd ⊢
  after_results
  rw [hm, hd]
  rfl

theorem biasRow1_at7 (c : Dev nD) : W7 m ρ c (Proc.devRef .tc main_v43) = biasRow1 m c := by
  show StableHlo.after hostOps2 (W6 m ρ c) (Proc.devRef .tc main_v43) = _
  have hb := b1_at6 m ρ c
  generalize W6 m ρ c = X at hb ⊢
  after_results
  rw [hb]
  rfl

theorem dst_at7 (c : Dev nD) : W7 m ρ c (Proc.devRef .tc main_v6) = dstIds (e m c) :=
  (show W7 m ρ c (Proc.devRef .tc main_v6) = W6 m ρ c (Proc.devRef .tc main_v6) by keep_host hostOps2).trans (dst_at6 m ρ c)
theorem src_at7 (c : Dev nD) : W7 m ρ c (Proc.devRef .tc main_v5) = srcIds (e m c) :=
  (show W7 m ρ c (Proc.devRef .tc main_v5) = W6 m ρ c (Proc.devRef .tc main_v5) by keep_host hostOps2).trans (src_at6 m ρ c)
theorem coef_at7 (c : Dev nD) : W7 m ρ c (Proc.devRef .tc main_v30) = coefColumn m c :=
  (show W7 m ρ c (Proc.devRef .tc main_v30) = W6 m ρ c (Proc.devRef .tc main_v30) by keep_host hostOps2).trans (coef_at6 m ρ c)

/-! ## Region 2: bias and rectifier -/

theorem hidden1_at8 (c : Dev nD) : W8 m ρ c (Proc.devRef .tc main_v44) = hidden1 m c := by
  refine (W8_arr m ρ c 2).trans ((BiasRelu128.array_eq (V7 m ρ) c).trans ?_)
  show addRowRelu (n := 50000) (p := 128) (W7 m ρ c (Proc.devRef .tc main_v42)) (W7 m ρ c (Proc.devRef .tc main_v43)) = _
  rw [aggregated1_at7, biasRow1_at7]
  rfl

theorem dst_at8 (c : Dev nD) : W8 m ρ c (Proc.devRef .tc main_v6) = dstIds (e m c) :=
  (W8_of_ne m ρ c main_v6 (by decide)).trans (dst_at7 m ρ c)
theorem src_at8 (c : Dev nD) : W8 m ρ c (Proc.devRef .tc main_v5) = srcIds (e m c) :=
  (W8_of_ne m ρ c main_v5 (by decide)).trans (src_at7 m ρ c)
theorem coef_at8 (c : Dev nD) : W8 m ρ c (Proc.devRef .tc main_v30) = coefColumn m c :=
  (W8_of_ne m ρ c main_v30 (by decide)).trans (coef_at7 m ρ c)

/-- The second weight matrix, never written, from the launch to region 3. -/
theorem w2_at8 (c : Dev nD) : W8 m ρ c (Proc.devRef .tc main_arg4) = w2 m c :=
  calc W8 m ρ c (Proc.devRef .tc main_arg4)
    _ = W7 m ρ c (Proc.devRef .tc main_arg4) := W8_of_ne m ρ c main_arg4 (by decide)
    _ = W6 m ρ c (Proc.devRef .tc main_arg4) := by keep_host hostOps2
    _ = W5 m ρ c (Proc.devRef .tc main_arg4) := W6_of_ne m ρ c main_arg4 (by decide)
    _ = W4 m ρ c (Proc.devRef .tc main_arg4) := by keep_host hostOps1
    _ = W3 m ρ c (Proc.devRef .tc main_arg4) := W4_of_ne m ρ c main_arg4 (by decide)
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = w2 m c := rfl

/-! ## Region 3: `h · W2` -/

theorem hidden2_at9 (c : Dev nD) : W9 m ρ c (Proc.devRef .tc main_v45) = hidden2 m c := by
  refine (W9_arr m ρ c 2).trans ((NodeLinear40.array_eq (V8 m ρ) c).trans ?_)
  show matProduct (n := 50000) (k := 128) (p := 40) (W8 m ρ c (Proc.devRef .tc main_v44)) (W8 m ρ c (Proc.devRef .tc main_arg4)) = _
  rw [hidden1_at8, w2_at8]
  rfl

theorem dst_at9 (c : Dev nD) : W9 m ρ c (Proc.devRef .tc main_v6) = dstIds (e m c) :=
  (W9_of_ne m ρ c main_v6 (by decide)).trans (dst_at8 m ρ c)
theorem src_at9 (c : Dev nD) : W9 m ρ c (Proc.devRef .tc main_v5) = srcIds (e m c) :=
  (W9_of_ne m ρ c main_v5 (by decide)).trans (src_at8 m ρ c)
theorem coef_at9 (c : Dev nD) : W9 m ρ c (Proc.devRef .tc main_v30) = coefColumn m c :=
  (W9_of_ne m ρ c main_v30 (by decide)).trans (coef_at8 m ρ c)

/-! ## The second gather -/

theorem gathered2_at10 (c : Dev nD) : W10 m ρ c (Proc.devRef .tc main_v52) = gathered2 m c := by
  show StableHlo.after hostOps4 (W9 m ρ c) (Proc.devRef .tc main_v52) = _
  have hh := hidden2_at9 m ρ c
  have hs := src_at9 m ρ c
  generalize W9 m ρ c = X at hh hs ⊢
  after_results
  rw [hh, hs]
  rfl

theorem dst_at10 (c : Dev nD) : W10 m ρ c (Proc.devRef .tc main_v6) = dstIds (e m c) :=
  (show W10 m ρ c (Proc.devRef .tc main_v6) = W9 m ρ c (Proc.devRef .tc main_v6) by keep_host hostOps4).trans (dst_at9 m ρ c)
theorem coef_at10 (c : Dev nD) : W10 m ρ c (Proc.devRef .tc main_v30) = coefColumn m c :=
  (show W10 m ρ c (Proc.devRef .tc main_v30) = W9 m ρ c (Proc.devRef .tc main_v30) by keep_host hostOps4).trans (coef_at9 m ρ c)

/-! ## Region 4: the second layer's messages -/

theorem message2_at11 (c : Dev nD) : W11 m ρ c (Proc.devRef .tc main_v53) = message2 m c := by
  refine (W11_arr m ρ c 2).trans ((EdgeScale40.array_eq (V10 m ρ) c).trans ?_)
  show scaleRows (n := 850000) (p := 40) (W10 m ρ c (Proc.devRef .tc main_v52)) (W10 m ρ c (Proc.devRef .tc main_v30)) = _
  rw [gathered2_at10, coef_at10]
  rfl

theorem dst_at11 (c : Dev nD) : W11 m ρ c (Proc.devRef .tc main_v6) = dstIds (e m c) :=
  (W11_of_ne m ρ c main_v6 (by decide)).trans (dst_at10 m ρ c)

/-- The second bias, never written, from the launch to the last host stretch. -/
theorem b2_at11 (c : Dev nD) : W11 m ρ c (Proc.devRef .tc main_arg5) = b2 m c :=
  calc W11 m ρ c (Proc.devRef .tc main_arg5)
    _ = W10 m ρ c (Proc.devRef .tc main_arg5) := W11_of_ne m ρ c main_arg5 (by decide)
    _ = W9 m ρ c (Proc.devRef .tc main_arg5) := by keep_host hostOps4
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by keep_host hostOps2
    _ = W5 m ρ c (Proc.devRef .tc main_arg5) := W6_of_ne m ρ c main_arg5 (by decide)
    _ = W4 m ρ c (Proc.devRef .tc main_arg5) := by keep_host hostOps1
    _ = W3 m ρ c (Proc.devRef .tc main_arg5) := W4_of_ne m ρ c main_arg5 (by decide)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = b2 m c := rfl

/-! ## The second scatter-add, and the bias as a row -/

theorem aggregated2_at12 (c : Dev nD) : W12 m ρ c (Proc.devRef .tc main_v56) = aggregated2 m c := by
  show StableHlo.after hostOps5 (W11 m ρ c) (Proc.devRef .tc main_v56) = _
  have hm := message2_at11 m ρ c
  have hd := dst_at11 m ρ c
  generalize W11 m ρ c = X at hm hd ⊢
  after_results
  rw [hm, hd]
  rfl

theorem biasRow2_at12 (c : Dev nD) : W12 m ρ c (Proc.devRef .tc main_v57) = biasRow2 m c := by
  show StableHlo.after hostOps5 (W11 m ρ c) (Proc.devRef .tc main_v57) = _
  have hb := b2_at11 m ρ c
  generalize W11 m ρ c = X at hb ⊢
  after_results
  rw [hb]
  rfl

/-! ## Region 5: the result -/

/-- The kernel's result array after the run. -/
theorem output_at13 (c : Dev nD) : W13 m ρ c (Proc.devRef .tc main_v58) = output m c := by
  refine (W13_arr m ρ c 2).trans ((BiasAdd40.array_eq (V12 m ρ) c).trans ?_)
  show addRow (n := 50000) (p := 40) (W12 m ρ c (Proc.devRef .tc main_v56)) (W12 m ρ c (Proc.devRef .tc main_v57)) = _
  rw [aggregated2_at12, biasRow2_at12]
  rfl

end Cert.KernelIdeal.Walk

end
-- ==== Proof.RefForms.lean ====
/-
  The reference's host operations, where the kernel has a pallas_call, are the same whole-array functions
  (Spec.lean), index by index at the extended reals:
    a `dot_general` contracting the second axis of the features with the first of the weights is `matProduct`;
    a product with a one-column array broadcast along the rows is `scaleRows`;
    a sum with a one-row array broadcast along the columns is `addRow`, and under `maximum … 0` it is `addRowRelu`;
  and a reshape that only adds a unit axis is the broadcast the reference writes in its place.
  Written over the reference program's shapes and stated side conditions.
-/
import proofs.«105650_j28802050687441_1_alg».proof.ReferenceIdeal
import proofs.«105650_j28802050687441_1_alg».proof.Proof.Gen.ReferenceIdeal
import proofs.«105650_j28802050687441_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Forms

open Idealize.ShloMosaic Cert.ReferenceIdeal Cert.ReferenceIdeal.Facts₀ Cert.ReferenceIdeal.Facts Cert.Gcn ValueIdx

/-! ## The two products' operand indices, coordinate by coordinate

Both products contract the features' second axis with the weights' first. At result index `j` and contraction
index `k` the features are read at `(j 0, k)` and the weights at `(k, j 1)`. -/

/-- On the features' kept axis the left operand's index reads the result's row coordinate. -/
private theorem lhs128_0 (j : S50000x128.Idx) (k : dot_S50000x128_S128x128_S50000x128_1_0_0_1_n_n.contr.Idx) :
    (dot_S50000x128_S128x128_S50000x128_1_0_0_1_n_n.lhsIdx j k 0).val = (j 0).val := rfl

/-- On the features' contracted axis the left operand's index reads the contraction coordinate. -/
private theorem lhs128_1 (j : S50000x128.Idx) (k : dot_S50000x128_S128x128_S50000x128_1_0_0_1_n_n.contr.Idx) :
    (dot_S50000x128_S128x128_S50000x128_1_0_0_1_n_n.lhsIdx j k 1).val = (k ⟨0, by decide⟩).val :=
  dot_S50000x128_S128x128_S50000x128_1_0_0_1_n_n.lhsIdx_val_of_single (cl := 1) rfl j k

/-- On the weights' contracted axis the right operand's index reads the contraction coordinate. -/
private theorem rhs128_0 (j : S50000x128.Idx) (k : dot_S50000x128_S128x128_S50000x128_1_0_0_1_n_n.contr.Idx) :
    (dot_S50000x128_S128x128_S50000x128_1_0_0_1_n_n.rhsIdx j k 0).val = (k ⟨0, by decide⟩).val :=
  dot_S50000x128_S128x128_S50000x128_1_0_0_1_n_n.rhsIdx_val_of_single (cr := 0) rfl j k

/-- On the weights' kept axis the right operand's index reads the result's column coordinate. -/
private theorem rhs128_1 (j : S50000x128.Idx) (k : dot_S50000x128_S128x128_S50000x128_1_0_0_1_n_n.contr.Idx) :
    (dot_S50000x128_S128x128_S50000x128_1_0_0_1_n_n.rhsIdx j k 1).val = (j 1).val := rfl

/-- On the features' kept axis the left operand's index reads the result's row coordinate. -/
private theorem lhs40_0 (j : S50000x40.Idx) (k : dot_S50000x128_S128x40_S50000x40_1_0_0_1_n_n.contr.Idx) :
    (dot_S50000x128_S128x40_S50000x40_1_0_0_1_n_n.lhsIdx j k 0).val = (j 0).val := rfl

/-- On the features' contracted axis the left operand's index reads the contraction coordinate. -/
private theorem lhs40_1 (j : S50000x40.Idx) (k : dot_S50000x128_S128x40_S50000x40_1_0_0_1_n_n.contr.Idx) :
    (dot_S50000x128_S128x40_S50000x40_1_0_0_1_n_n.lhsIdx j k 1).val = (k ⟨0, by decide⟩).val :=
  dot_S50000x128_S128x40_S50000x40_1_0_0_1_n_n.lhsIdx_val_of_single (cl := 1) rfl j k

/-- On the weights' contracted axis the right operand's index reads the contraction coordinate. -/
private theorem rhs40_0 (j : S50000x40.Idx) (k : dot_S50000x128_S128x40_S50000x40_1_0_0_1_n_n.contr.Idx) :
    (dot_S50000x128_S128x40_S50000x40_1_0_0_1_n_n.rhsIdx j k 0).val = (k ⟨0, by decide⟩).val :=
  dot_S50000x128_S128x40_S50000x40_1_0_0_1_n_n.rhsIdx_val_of_single (cr := 0) rfl j k

/-- On the weights' kept axis the right operand's index reads the result's column coordinate. -/
private theorem rhs40_1 (j : S50000x40.Idx) (k : dot_S50000x128_S128x40_S50000x40_1_0_0_1_n_n.contr.Idx) :
    (dot_S50000x128_S128x40_S50000x40_1_0_0_1_n_n.rhsIdx j k 1).val = (j 1).val := rfl

/-! ## The host operations as the whole-array functions -/

/-- The first layer's `x @ W1`. -/
theorem dot128 (x : FVec Ideal S50000x128 .f32) (w : FVec Ideal S128x128 .f32) :
    Host.dotGeneral dot_S50000x128_S128x128_S50000x128_1_0_0_1_n_n none x w
      = matProduct (n := 50000) (k := 128) (p := 128) x w := by
  funext i
  obtain ⟨p, q, rfl⟩ : ∃ (p : Fin 50000) (q : Fin 128), i = ix2 p q := ⟨i 0, i 1, eq_ix2 i⟩
  -- the host product at an index: the sum over the contracted shape of the operands' products
  simp only [Host.dotGeneral]
  rw [Ideal.dotGeneral_apply]
  -- the contracted shape has one axis of extent 128: sum over its coordinate instead
  rw [← Equiv.sum_comp (contrEquiv1 dot_S50000x128_S128x128_S50000x128_1_0_0_1_n_n 128 rfl rfl).symm]
  show _ = ∑ l : Fin 128, x (ix2 p l) * w (ix2 l q)
  refine Finset.sum_congr rfl fun l _ => ?_
  -- at contraction coordinate l the features are read at (p, l) …
  have hl : dot_S50000x128_S128x128_S50000x128_1_0_0_1_n_n.lhsIdx (ix2 p q) ((contrEquiv1 dot_S50000x128_S128x128_S50000x128_1_0_0_1_n_n 128 rfl rfl).symm l) = ix2 p l := by
    funext a
    refine Fin.ext ?_
    match a with
    | ⟨0, _⟩ => exact lhs128_0 _ _
    | ⟨1, _⟩ => exact (lhs128_1 _ _).trans (contrEquiv1_symm_val dot_S50000x128_S128x128_S50000x128_1_0_0_1_n_n 128 rfl rfl l)
  -- … and the weights at (l, q)
  have hr : dot_S50000x128_S128x128_S50000x128_1_0_0_1_n_n.rhsIdx (ix2 p q) ((contrEquiv1 dot_S50000x128_S128x128_S50000x128_1_0_0_1_n_n 128 rfl rfl).symm l) = ix2 l q := by
    funext a
    refine Fin.ext ?_
    match a with
    | ⟨0, _⟩ => exact (rhs128_0 _ _).trans (contrEquiv1_symm_val dot_S50000x128_S128x128_S50000x128_1_0_0_1_n_n 128 rfl rfl l)
    | ⟨1, _⟩ => exact rhs128_1 _ _
  rw [hl, hr]

/-- The second layer's `h @ W2`. -/
theorem dot40 (x : FVec Ideal S50000x128 .f32) (w : FVec Ideal S128x40 .f32) :
    Host.dotGeneral dot_S50000x128_S128x40_S50000x40_1_0_0_1_n_n none x w
      = matProduct (n := 50000) (k := 128) (p := 40) x w := by
  funext i
  obtain ⟨p, q, rfl⟩ : ∃ (p : Fin 50000) (q : Fin 40), i = ix2 p q := ⟨i 0, i 1, eq_ix2 i⟩
  -- the host product at an index: the sum over the contracted shape of the operands' products
  simp only [Host.dotGeneral]
  rw [Ideal.dotGeneral_apply]
  -- the contracted shape has one axis of extent 128: sum over its coordinate instead
  rw [← Equiv.sum_comp (contrEquiv1 dot_S50000x128_S128x40_S50000x40_1_0_0_1_n_n 128 rfl rfl).symm]
  show _ = ∑ l : Fin 128, x (ix2 p l) * w (ix2 l q)
  refine Finset.sum_congr rfl fun l _ => ?_
  -- at contraction coordinate l the features are read at (p, l) …
  have hl : dot_S50000x128_S128x40_S50000x40_1_0_0_1_n_n.lhsIdx (ix2 p q) ((contrEquiv1 dot_S50000x128_S128x40_S50000x40_1_0_0_1_n_n 128 rfl rfl).symm l) = ix2 p l := by
    funext a
    refine Fin.ext ?_
    match a with
    | ⟨0, _⟩ => exact lhs40_0 _ _
    | ⟨1, _⟩ => exact (lhs40_1 _ _).trans (contrEquiv1_symm_val dot_S50000x128_S128x40_S50000x40_1_0_0_1_n_n 128 rfl rfl l)
  -- … and the weights at (l, q)
  have hr : dot_S50000x128_S128x40_S50000x40_1_0_0_1_n_n.rhsIdx (ix2 p q) ((contrEquiv1 dot_S50000x128_S128x40_S50000x40_1_0_0_1_n_n 128 rfl rfl).symm l) = ix2 l q := by
    funext a
    refine Fin.ext ?_
    match a with
    | ⟨0, _⟩ => exact (rhs40_0 _ _).trans (contrEquiv1_symm_val dot_S50000x128_S128x40_S50000x40_1_0_0_1_n_n 128 rfl rfl l)
    | ⟨1, _⟩ => exact rhs40_1 _ _
  rw [hl, hr]

/-- A vector reshaped to one column is that vector broadcast to one column. -/
theorem column_eq (v : FVec Ideal S850000 .f32) (h : S850000.ShapeCasts S850000x1) :
    shapeCast S850000x1 v h = broadcastInDim S850000x1 ![0] bcast_S850000_S850000x1_0 v := by
  funext j
  obtain ⟨p, q, rfl⟩ : ∃ (p : Fin 850000) (q : Fin 1), j = ix2 p q := ⟨j 0, j 1, eq_ix2 j⟩
  -- the reshape keeps the row-major position: (p, q) of the column sits at p · 1 + q, and q = 0
  have hq : q.val = 0 := by omega
  have hcast : shapeCast S850000x1 v h (ix2 p q) = v (ix1 p) :=
    shapeCast_apply v h (ix2 p q) (ix1 p) (by
      rw [Shape.rowMajor_val_one, Shape.rowMajor_val_two]
      show p.val = p.val * 1 + q.val
      omega)
  -- the broadcast along axis 0 reads the vector at the row coordinate
  have hbc : broadcastInDim S850000x1 ![0] bcast_S850000_S850000x1_0 v (ix2 p q) = v (ix1 p) :=
    broadcastInDim_apply ![0] bcast_S850000_S850000x1_0 v (ix2 p q) (ix1 p) (fun a =>
      match a with
      | ⟨0, _⟩ => rfl)
  rw [hcast, hbc]

/-- The first layer's `h[src] * norm[:, None]`. -/
theorem scale128 (g : FVec Ideal S850000x128 .f32) (s : FVec Ideal S850000x1 .f32) :
    mulf g (broadcastInDim S850000x128 ![0, 1] bcast_S850000x1_S850000x128_0_1 s)
      = scaleRows (n := 850000) (p := 128) g s := by
  funext i
  obtain ⟨p, q, rfl⟩ : ∃ (p : Fin 850000) (q : Fin 128), i = ix2 p q := ⟨i 0, i 1, eq_ix2 i⟩
  -- the one-column array broadcast along the columns reads row p's single entry
  have hbc : broadcastInDim S850000x128 ![0, 1] bcast_S850000x1_S850000x128_0_1 s (ix2 p q) = s (ix2 p (0 : Fin 1)) :=
    broadcastInDim_apply ![0, 1] bcast_S850000x1_S850000x128_0_1 s (ix2 p q) (ix2 p (0 : Fin 1)) (fun a =>
      match a with
      | ⟨0, _⟩ => rfl
      | ⟨1, _⟩ => rfl)
  rw [mulf_apply, hbc]
  rfl

/-- The second layer's `h[src] * norm[:, None]`. -/
theorem scale40 (g : FVec Ideal S850000x40 .f32) (s : FVec Ideal S850000x1 .f32) :
    mulf g (broadcastInDim S850000x40 ![0, 1] bcast_S850000x1_S850000x40_0_1 s)
      = scaleRows (n := 850000) (p := 40) g s := by
  funext i
  obtain ⟨p, q, rfl⟩ : ∃ (p : Fin 850000) (q : Fin 40), i = ix2 p q := ⟨i 0, i 1, eq_ix2 i⟩
  -- the one-column array broadcast along the columns reads row p's single entry
  have hbc : broadcastInDim S850000x40 ![0, 1] bcast_S850000x1_S850000x40_0_1 s (ix2 p q) = s (ix2 p (0 : Fin 1)) :=
    broadcastInDim_apply ![0, 1] bcast_S850000x1_S850000x40_0_1 s (ix2 p q) (ix2 p (0 : Fin 1)) (fun a =>
      match a with
      | ⟨0, _⟩ => rfl
      | ⟨1, _⟩ => rfl)
  rw [mulf_apply, hbc]
  rfl

/-- The first bias reshaped to one row is that bias broadcast to one row. -/
theorem row128_eq (b : FVec Ideal S128 .f32) (h : S128.ShapeCasts S1x128) :
    shapeCast S1x128 b h = broadcastInDim S1x128 ![1] bcast_S128_S1x128_1 b := by
  funext j
  obtain ⟨u, q, rfl⟩ : ∃ (u : Fin 1) (q : Fin 128), j = ix2 u q := ⟨j 0, j 1, eq_ix2 j⟩
  -- the broadcast along axis 1 reads the vector at the column coordinate, as the reshape to one row does
  have hbc : broadcastInDim S1x128 ![1] bcast_S128_S1x128_1 b (ix2 u q) = b (ix1 q) :=
    broadcastInDim_apply ![1] bcast_S128_S1x128_1 b (ix2 u q) (ix1 q) (fun a =>
      match a with
      | ⟨0, _⟩ => rfl)
  rw [shapeCast_a_1a_apply b h u q, hbc]

/-- The second bias reshaped to one row is that bias broadcast to one row. -/
theorem row40_eq (b : FVec Ideal S40 .f32) (h : S40.ShapeCasts S1x40) :
    shapeCast S1x40 b h = broadcastInDim S1x40 ![1] bcast_S40_S1x40_1 b := by
  funext j
  obtain ⟨u, q, rfl⟩ : ∃ (u : Fin 1) (q : Fin 40), j = ix2 u q := ⟨j 0, j 1, eq_ix2 j⟩
  -- the broadcast along axis 1 reads the vector at the column coordinate, as the reshape to one row does
  have hbc : broadcastInDim S1x40 ![1] bcast_S40_S1x40_1 b (ix2 u q) = b (ix1 q) :=
    broadcastInDim_apply ![1] bcast_S40_S1x40_1 b (ix2 u q) (ix1 q) (fun a =>
      match a with
      | ⟨0, _⟩ => rfl)
  rw [shapeCast_a_1a_apply b h u q, hbc]

/-- The first layer's `relu(out + b1)`. -/
theorem biasRelu128 (a : FVec Ideal S50000x128 .f32) (r : FVec Ideal S1x128 .f32) :
    maximumf (addf a (broadcastInDim S50000x128 ![0, 1] bcast_S1x128_S50000x128_0_1 r))
        (broadcastInDim S50000x128 ![] bcast_S_S50000x128 (constant S_ .f32 0x00000000#32))
      = addRowRelu (n := 50000) (p := 128) a r := by
  funext i
  obtain ⟨p, q, rfl⟩ : ∃ (p : Fin 50000) (q : Fin 128), i = ix2 p q := ⟨i 0, i 1, eq_ix2 i⟩
  -- the one-row array broadcast along the rows reads its entry in column q
  have hrow : broadcastInDim S50000x128 ![0, 1] bcast_S1x128_S50000x128_0_1 r (ix2 p q) = r (ix2 (0 : Fin 1) q) :=
    broadcastInDim_apply ![0, 1] bcast_S1x128_S50000x128_0_1 r (ix2 p q) (ix2 (0 : Fin 1) q) (fun a =>
      match a with
      | ⟨0, _⟩ => rfl
      | ⟨1, _⟩ => rfl)
  -- the scalar zero broadcast to the whole array reads that one word everywhere
  have hzero : broadcastInDim S50000x128 ![] bcast_S_S50000x128 (constant (F := Ideal) S_ .f32 0x00000000#32) (ix2 p q)
      = Ideal.ofBits .f32 0x00000000#32 :=
    (broadcastInDim_apply ![] bcast_S_S50000x128 (constant (F := Ideal) S_ .f32 0x00000000#32) (ix2 p q) ix0
      (fun a => a.elim0)).trans (constant_apply _ _)
  rw [maximumf_apply, addf_apply, hrow, hzero]
  rfl

/-- The second layer's `out + b2`. -/
theorem bias40 (a : FVec Ideal S50000x40 .f32) (r : FVec Ideal S1x40 .f32) :
    addf a (broadcastInDim S50000x40 ![0, 1] bcast_S1x40_S50000x40_0_1 r) = addRow (n := 50000) (p := 40) a r := by
  funext i
  obtain ⟨p, q, rfl⟩ : ∃ (p : Fin 50000) (q : Fin 40), i = ix2 p q := ⟨i 0, i 1, eq_ix2 i⟩
  -- the one-row array broadcast along the rows reads its entry in column q
  have hrow : broadcastInDim S50000x40 ![0, 1] bcast_S1x40_S50000x40_0_1 r (ix2 p q) = r (ix2 (0 : Fin 1) q) :=
    broadcastInDim_apply ![0, 1] bcast_S1x40_S50000x40_0_1 r (ix2 p q) (ix2 (0 : Fin 1) q) (fun a =>
      match a with
      | ⟨0, _⟩ => rfl
      | ⟨1, _⟩ => rfl)
  rw [addf_apply, hrow]
  rfl

end Cert.ReferenceIdeal.Forms

end
-- ==== Proof.GcnForms.lean ====
/-
  The whole network with the four whole-array functions (Spec.lean) written in the six places where the kernel has a
  pallas_call: the two dense products as `matProduct`, the two scalings of the gathered rows as `scaleRows`, the first
  bias with its rectifier as `addRowRelu`, the second bias as `addRow`; and with the coefficient column and the two bias
  rows written as the reshapes the kernel's program makes of them. The gathers and the scatter-adds stay as they are:
  both programs apply the same ones.
-/
import proofs.«105650_j28802050687441_1_alg».proof.Proof.GcnSpec
import proofs.«105650_j28802050687441_1_alg».proof.Proof.RefForms

set_option maxRecDepth 16384

noncomputable section

namespace Cert.Gcn

open Idealize.ShloMosaic Cert.ReferenceIdeal Cert.ReferenceIdeal.Facts₀ Cert.ReferenceIdeal.Facts Cert.ReferenceIdeal.Forms

/-- The first layer's aggregation, bias and rectifier. -/
theorem layer1_forms (e : IVec S2x800000 32) (h : FVec Ideal S50000x128 .f32) (coef : FVec Ideal S850000 .f32)
    (b : FVec Ideal S128 .f32) (hc : S850000.ShapeCasts S850000x1) (hr : S128.ShapeCasts S1x128) :
    maximumf (conv128 (F := Ideal) e h coef b) (broadcastInDim S50000x128 ![] bcast_S_S50000x128 (constant S_ .f32 0x00000000#32))
      = addRowRelu (n := 50000) (p := 128)
          (Host.scatterAdd (F := Ideal) scatter_S50000x128_S850000x1_S850000x128_1_0_0_1 (broadcastInDim S50000x128 ![] bcast_S_S50000x128 (constant S_ .f32 0x00000000#32)) (asColumn (dstIds e))
            (scaleRows (n := 850000) (p := 128)
              (Host.gather gather_S50000x128_S850000x1_S850000x128_1_0_n_n_0_1_1128 h (asColumn (wrapNeg (srcIds e))))
              (shapeCast S850000x1 coef hc)))
          (shapeCast S1x128 b hr) := by
  unfold conv128
  rw [biasRelu128, scale128, ← column_eq coef hc, ← row128_eq b hr]
  rfl

/-- The second layer's aggregation and bias. -/
theorem layer2_forms (e : IVec S2x800000 32) (h : FVec Ideal S50000x40 .f32) (coef : FVec Ideal S850000 .f32)
    (b : FVec Ideal S40 .f32) (hc : S850000.ShapeCasts S850000x1) (hr : S40.ShapeCasts S1x40) :
    conv40 (F := Ideal) e h coef b
      = addRow (n := 50000) (p := 40)
          (Host.scatterAdd (F := Ideal) scatter_S50000x40_S850000x1_S850000x40_1_0_0_1 (broadcastInDim S50000x40 ![] bcast_S_S50000x40 (constant S_ .f32 0x00000000#32)) (asColumn (dstIds e))
            (scaleRows (n := 850000) (p := 40)
              (Host.gather gather_S50000x40_S850000x1_S850000x40_1_0_n_n_0_1_140 h (asColumn (wrapNeg (srcIds e))))
              (shapeCast S850000x1 coef hc)))
          (shapeCast S1x40 b hr) := by
  unfold conv40
  rw [bias40, scale40, ← column_eq coef hc, ← row40_eq b hr]
  rfl

/-- The whole network. -/
theorem gcn_forms (ids : IVec S850000 32) (x : FVec Ideal S50000x128 .f32) (e : IVec S2x800000 32) (w1 : FVec Ideal S128x128 .f32)
    (b1 : FVec Ideal S128 .f32) (w2 : FVec Ideal S128x40 .f32) (b2 : FVec Ideal S40 .f32)
    (hc : S850000.ShapeCasts S850000x1) (hr1 : S128.ShapeCasts S1x128) (hr2 : S40.ShapeCasts S1x40) :
    gcn (F := Ideal) ids x e w1 b1 w2 b2
      = addRow (n := 50000) (p := 40)
          (Host.scatterAdd (F := Ideal) scatter_S50000x40_S850000x1_S850000x40_1_0_0_1 (broadcastInDim S50000x40 ![] bcast_S_S50000x40 (constant S_ .f32 0x00000000#32)) (asColumn (dstIds e))
            (scaleRows (n := 850000) (p := 40)
              (Host.gather gather_S50000x40_S850000x1_S850000x40_1_0_n_n_0_1_140
                (matProduct (n := 50000) (k := 128) (p := 40)
                  (addRowRelu (n := 50000) (p := 128)
                    (Host.scatterAdd (F := Ideal) scatter_S50000x128_S850000x1_S850000x128_1_0_0_1 (broadcastInDim S50000x128 ![] bcast_S_S50000x128 (constant S_ .f32 0x00000000#32)) (asColumn (dstIds e))
                      (scaleRows (n := 850000) (p := 128)
                        (Host.gather gather_S50000x128_S850000x1_S850000x128_1_0_n_n_0_1_1128 (matProduct (n := 50000) (k := 128) (p := 128) x w1) (asColumn (wrapNeg (srcIds e))))
                        (shapeCast S850000x1 (edgeCoef (F := Ideal) (invSqrt (degree ids)) e) hc)))
                    (shapeCast S1x128 b1 hr1))
                  w2)
                (asColumn (wrapNeg (srcIds e))))
              (shapeCast S850000x1 (edgeCoef (F := Ideal) (invSqrt (degree ids)) e) hc)))
          (shapeCast S1x40 b2 hr2) := by
  unfold gcn
  rw [layer2_forms _ _ _ _ hc hr2, layer1_forms _ _ _ _ hc hr1, dot128, dot40]

end Cert.Gcn

end
-- ==== Proof.KernelIsGcn.lean ====
/-
  The kernel program's result (KChain.lean `Walk.output`) is the network `gcn` with the degrees counted at the RAW
  destination ids: where `gcn` has a host operation the kernel has the pallas_call that computes the same whole-array
  function (GcnForms.lean), and everywhere else the two apply the same operation to the same operands.
-/
import proofs.«105650_j28802050687441_1_alg».proof.Proof.KChain
import proofs.«105650_j28802050687441_1_alg».proof.Proof.GcnForms

set_option maxRecDepth 16384

noncomputable section

namespace Cert.KernelIdeal.Walk

open Idealize.ShloMosaic Idealize.ShloMosaic.TcCoe Idealize.SL.Sem Cert.KernelIdeal Cert.KernelIdeal.Gen Cert.Gcn

variable (m : (ℓ : Loc nD τ sig) → Buf (Elt Ideal) ℓ)

theorem output_eq_gcn (c : Dev nD) :
    output m c = gcn (F := Ideal) (dstIds (e m c)) (x m c) (e m c) (w1 m c) (b1 m c) (w2 m c) (b2 m c) := by
  rw [gcn_forms _ _ _ _ _ _ _ shapeCasts_S850000_S850000x1 shapeCasts_S128_S1x128 shapeCasts_S40_S1x40]
  rfl

end Cert.KernelIdeal.Walk

end
-- ==== Proof.RefIsGcn.lean ====
/-
  The reference program's result, as its run states it (one term of the six inputs, every shared intermediate written out
  at each use), is the network `gcn` with the degrees counted at the NORMALISED destination ids: the reference builds
  them with `.at[dst].add(1.0)`, which normalises a negative id before it adds. The two terms differ only by the names
  `gcn` gives to the shared intermediates.
-/
import proofs.«105650_j28802050687441_1_alg».proof.Proof.RefRun
import proofs.«105650_j28802050687441_1_alg».proof.Proof.GcnSpec

set_option maxRecDepth 16384

noncomputable section

namespace Cert.ReferenceIdeal.AsGcn

open Idealize.ShloMosaic Idealize.ShloMosaic.TcCoe Idealize.SL.Sem Cert.ReferenceIdeal Cert.Gcn

variable {F : FTy → Type} [FloatOps F]

theorem result_eq_gcn (m : (ℓ : Loc nD τ sig) → Buf (Elt F) ℓ) (c : Dev nD) :
    Cert.ReferenceIdeal.Value.res_main_v84 (F := F) m c
      = gcn (F := F) (wrapNeg (dstIds (m ((c.tc : Thread nD τ).loc main_arg1))))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v84 gcn conv40 conv128 edgeCoef invSqrt degree wrapNeg dstIds srcIds
  rfl

end Cert.ReferenceIdeal.AsGcn

end
-- ==== Proof.DstDomain.lean ====
/-
  What the added conjunct of the precondition, `jnp.all(edge_index[1] >= 0)`, gives: every destination id is
  non-negative (the 800000 given ones by the conjunct, the 50000 self-loop ids because they are 0 … 49999), so jnp's
  index normalisation leaves the destination ids as they are. This is the one place the two programs differ: the kernel
  counts degrees at the raw destination ids, the reference at the normalised ones.
-/
import proofs.«105650_j28802050687441_1_alg».proof.Pre_finite_inputs
import proofs.«105650_j28802050687441_1_alg».proof.Proof.Gen.Pre_finite_inputs
import proofs.«105650_j28802050687441_1_alg».proof.Proof.EdgeIds
import Idealize.ShloMosaic.Lib.Pipeline.Value
import Idealize.ShloMosaic.Lib.ValueIdx
import Idealize.ShloMosaic.Lib.ReduceAll
import Idealize.ShloMosaic.Lib.StableHlo.Predicate

set_option maxRecDepth 16384

noncomputable section

namespace Cert.Gcn

open Idealize.ShloMosaic Cert.ReferenceIdeal ValueIdx

namespace DstDomain

/-! ## Words: a signed compare against the zero word -/

/-- A word that is at least the zero word, signed, is not below it. -/
theorem slt_zero_of_sge_zero (a : BitVec 32) (h : IntOp.cmpi .sge a 0#32 = 1#1) : IntOp.cmpi .slt a 0#32 = 0#1 := by
  unfold IntOp.cmpi at h ⊢
  have h' : (0#32 : BitVec 32).sle a = true := (StableHlo.Predicate.ofBool_eq_one_iff _).1 h
  have hn : a.slt 0#32 = false := by
    simp only [BitVec.sle, BitVec.slt, decide_eq_true_eq, decide_eq_false_iff_not, not_lt] at h' ⊢
    exact h'
  rw [hn]; rfl

/-- A node id, a word below 50000, is not below the zero word. -/
theorem slt_zero_ofNat (k : ℕ) (hk : k < 50000) : IntOp.cmpi .slt (BitVec.ofNat 32 k) 0#32 = 0#1 := by
  unfold IntOp.cmpi
  have hn : (BitVec.ofNat 32 k).slt 0#32 = false := by
    simp only [BitVec.slt, StableHlo.Predicate.toInt_ofNat_small k (by omega), decide_eq_false_iff_not, not_lt]
    exact Int.natCast_nonneg k
  rw [hn]; rfl

/-! ## The conjunct read back -/

/-- `jnp.all(d >= 0)` printed over a vector `d` of 800000 words and equal to 1: every word of `d` is at least zero. -/
theorem all_sge_zero (d : IVec Cert.Pre_finite_inputs.S800000 32)
    (hb : Cert.Pre_finite_inputs.S_.BroadcastsInDim Cert.Pre_finite_inputs.S800000 (![] : Fin 0 → Fin 1))
    (hr : Cert.Pre_finite_inputs.S800000.ReducesTo [0] Cert.Pre_finite_inputs.S_) (hu : 0 < Cert.Pre_finite_inputs.S_.numel)
    (i : Cert.Pre_finite_inputs.S_.Idx)
    (h : Host.reduce IntOp.andi (cmpi .sge d (broadcastInDim Cert.Pre_finite_inputs.S800000 ![] hb (constantI Cert.Pre_finite_inputs.S_ 32 0#32)))
      (constantI Cert.Pre_finite_inputs.S_ 1 1#1) hr hu i = 1#1) (k : Cert.Pre_finite_inputs.S800000.Idx) :
    IntOp.cmpi .sge (d k) 0#32 = 1#1 := by
  -- the scalar shape has one index, so the reduction's one result collects every element of the compare
  haveI : Subsingleton Cert.Pre_finite_inputs.S_.Idx := ⟨fun a b => funext fun c => c.elim0⟩
  exact Host.reduce_andi_all _ _ hr hu i h k

/-! ## The normalisation over a concatenation of non-negative ids -/

/-- Given ids none of which is below zero, followed by the node ids 0 … 49999: the normalisation changes nothing. -/
theorem wrapNeg_concat_of_nonneg (d : IVec S800000 32) (hc : Shape.Concatenates [S800000, S50000] S850000 0)
    (hd : ∀ k, IntOp.cmpi .slt (d k) 0#32 = 0#1) :
    wrapNeg (concatenate S850000 0 [⟨S800000, d⟩, ⟨S50000, iotaInDim S50000 32 0⟩] hc)
      = concatenate S850000 0 [⟨S800000, d⟩, ⟨S50000, iotaInDim S50000 32 0⟩] hc := by
  funext j
  obtain ⟨c, rfl⟩ : ∃ c : Fin 850000, j = ix1 c := ⟨j 0, eq_ix1 j⟩
  -- the entry at position c is not below zero: a given id before position 800000, the node id c − 800000 from there on
  have key : IntOp.cmpi .slt (concatenate S850000 0 [⟨S800000, d⟩, ⟨S50000, iotaInDim S50000 32 0⟩] hc (ix1 c)) 0#32 = 0#1 := by
    by_cases hlt : c.val < 800000
    · rw [concatenate_pair_apply_left 0 d _ hc (ix1 c) rfl (ix1 ⟨c.val, hlt⟩) (fun b => by match b with | ⟨0, _⟩ => rfl)]
      exact hd _
    · have hc' := c.isLt
      rw [concatenate_pair_apply_right 0 d _ hc (ix1 c) rfl rfl (ix1 ⟨c.val - 800000, by omega⟩)
        (fun b hb => by match b with | ⟨0, _⟩ => exact absurd rfl hb) (by show c.val - 800000 + 800000 = c.val; omega)]
      exact slt_zero_ofNat (c.val - 800000) (by omega)
  -- so the select's condition is 0 there and it keeps the id
  show Scalar.select (IntOp.cmpi .slt _ 0#32) _ _ = _
  rw [key, select_zero]

end DstDomain

/-- Under the precondition the normalised destination ids are the destination ids. -/
theorem wrapNeg_dstIds_of_pre (x : FVec Ideal S50000x128 .f32) (e : IVec S2x800000 32) (w1 : FVec Ideal S128x128 .f32)
    (b1 : FVec Ideal S128 .f32) (w2 : FVec Ideal S128x40 .f32) (b2 : FVec Ideal S40 .f32)
    (hpre : Cert.Pre_finite_inputs.fn (F := Ideal) x e w1 b1 w2 b2 = fun _ => 1#1) :
    wrapNeg (dstIds e) = dstIds e := by
  -- the precondition at its one index is a conjunction whose last conjunct is `jnp.all(edge_index[1] >= 0)`
  have h0 := congrFun hpre ix0
  dsimp only [Cert.Pre_finite_inputs.fn, Cert.Pre_finite_inputs.fn_part1] at h0
  have h1 := (IntOp.andi_eq_one.1 h0).2
  -- the vector that conjunct compares with zero is the first piece of the destination ids
  exact DstDomain.wrapNeg_concat_of_nonneg _ _
    (fun k => DstDomain.slt_zero_of_sge_zero _ (DstDomain.all_sge_zero _ _ _ _ ix0 h1 k))

end Cert.Gcn

end
-- ==== Proof.lean ====
/-
  A two-layer graph convolution (the symmetric-normalised GCN of Kipf and Welling, evaluation mode) on 50000 nodes and
  800000 edges plus the self-loops:

      out = Â · relu(Â · (x W1) + b1) · W2 + b2,        Â[d, s] = Σ over edges s → d of 1 / sqrt(deg s · deg d).

  The kernel's program keeps the irregular steps on the host (the degrees, the gathers of the source rows, the scatter-adds
  at the destination ids) and runs the regular ones as six pallas_calls: per layer the dense product, the scaling of every
  edge's gathered row by the edge's coefficient, and the bias (with the rectifier in the first layer). The reference runs
  everything on the host. At the extended reals the two are the same composition, operation by operation:

    * each pallas_call leaves in its output array one whole-array function of its input arrays (NodeLinear128, EdgeScale128,
      BiasRelu128, NodeLinear40, EdgeScale40, BiasAdd40; the functions are Spec.lean's), and the reference's host operations
      in those places are the same functions (RefForms.lean);
    * the kernel's run, read boundary by boundary (KRun.lean, KChain.lean), ends with the result at `gcn (dstIds e) …`
      (KernelIsGcn.lean), the reference's (RefRun.lean) at `gcn (wrapNeg (dstIds e)) …` (RefIsGcn.lean): the one difference
      is that the kernel counts the degrees with `segment_sum` at the raw destination ids and the reference with
      `.at[dst].add(1.0)` at the normalised ones, so that a destination id in −50000 … −1 is counted by one and dropped by
      the other;
    * under the precondition's conjunct `edge_index[1] >= 0` no destination id is negative and the normalisation is the
      identity on them (DstDomain.lean).

  No law of the extended reals beyond that is used: the sums are the same sums in the same places, so finiteness of the
  float inputs is never opened.
-/
import proofs.«105650_j28802050687441_1_alg».proof.Defs
import proofs.«105650_j28802050687441_1_alg».proof.Proof.Gen.Kernel
import proofs.«105650_j28802050687441_1_alg».proof.Proof.Gen.Kernel.Skeleton
import proofs.«105650_j28802050687441_1_alg».proof.Proof.Gen.Kernel.Launch
import proofs.«105650_j28802050687441_1_alg».proof.Proof.Gen.Kernel.Points
import proofs.«105650_j28802050687441_1_alg».proof.Proof.Gen.Kernel.Frame
import proofs.«105650_j28802050687441_1_alg».proof.Proof.Gen.KernelIdeal
import proofs.«105650_j28802050687441_1_alg».proof.Proof.Gen.KernelIdeal.Skeleton
import proofs.«105650_j28802050687441_1_alg».proof.Proof.Gen.KernelIdeal.Launch
import proofs.«105650_j28802050687441_1_alg».proof.Proof.Gen.KernelIdeal.Points
import proofs.«105650_j28802050687441_1_alg».proof.Proof.Gen.KernelIdeal.Frame
import proofs.«105650_j28802050687441_1_alg».proof.Proof.Gen.ReferenceIdeal
import proofs.«105650_j28802050687441_1_alg».proof.Proof.RefRun
import proofs.«105650_j28802050687441_1_alg».proof.Proof.Gen.Pre_finite_inputs
import proofs.«105650_j28802050687441_1_alg».proof.Proof.KRun
import proofs.«105650_j28802050687441_1_alg».proof.Proof.KChain
import proofs.«105650_j28802050687441_1_alg».proof.Proof.KernelIsGcn
import proofs.«105650_j28802050687441_1_alg».proof.Proof.RefIsGcn
import proofs.«105650_j28802050687441_1_alg».proof.Proof.DstDomain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the same extended reals: the kernel's at `gcn` with the degrees counted at
    the destination ids, the reference's at `gcn` with them counted at the normalised destination ids, and under the
    precondition the two id vectors are one. -/
theorem algebraic : Cert.algebraic_KernelIdeal_ReferenceIdeal := by
  intro m ρ m' ρ' hpre hagree
  refine ⟨fun c => Cert.KernelIdeal.Walk.output m c, ?_, ?_⟩
  · exact (θ_run Cert.KernelIdeal.defs _ _).mono
      (fun _ h c => ⟨(h c).1.trans (Cert.KernelIdeal.Walk.output_at13 m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.AsGcn.result_eq_gcn, (hagree c).1, (hagree c).2.1, (hagree c).2.2.1, (hagree c).2.2.2.1,
      (hagree c).2.2.2.2.1, (hagree c).2.2.2.2.2]
    rw [Cert.Gcn.wrapNeg_dstIds_of_pre _ _ _ _ _ _ (hpre c)]
    exact (Cert.KernelIdeal.Walk.output_eq_gcn m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
